-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1000#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x1000 : Shape := ⟨2, ![65536, 1000]⟩
abbrev S65536 : Shape := ⟨1, ![65536]⟩
abbrev S65536x1 : Shape := ⟨2, ![65536, 1]⟩
abbrev S65536x3 : Shape := ⟨2, ![65536, 3]⟩
abbrev S512x1000 : Shape := ⟨2, ![512, 1000]⟩
abbrev S512x1 : Shape := ⟨2, ![512, 1]⟩
abbrev S512x3 : Shape := ⟨2, ![512, 3]⟩
abbrev S1x1000 : Shape := ⟨2, ![1, 1000]⟩
abbrev S512 : Shape := ⟨1, ![512]⟩
abbrev S_ : Shape := ⟨0, ![]⟩

abbrev nBuf : Space → Nat
  | .hbm => 26
  | .vmem => 6
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1, .i32⟩
  | .hbm, ⟨3, _⟩ => ⟨S65536x3, .f32⟩
  | .hbm, ⟨4, _⟩ => ⟨S65536x1, .f32⟩
  | .hbm, ⟨5, _⟩ => ⟨S65536, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S65536x1, .f32⟩
  | .hbm, ⟨11, _⟩ => ⟨S65536, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S65536x1, .f32⟩
  | .hbm, ⟨17, _⟩ => ⟨S65536, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1, .i32⟩
  | .local _ .vmem, ⟨3, _⟩ => ⟨S512x1, .i32⟩
  | .local _ .vmem, ⟨4, _⟩ => ⟨S512x3, .f32⟩
  | .local _ .vmem, ⟨5, _⟩ => ⟨S512x3, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S65536_S65536x1 : S65536.ShapeCasts S65536x1
  inb_S512x1000_S512x1000_0_0 : ∀ a, (![0, 0] : Fin 2 → Nat) a + S512x1000.size a ≤ S512x1000.size a
  h_S512x1000 : 0 < S512x1000.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x1000_d1_w32 : S1x1000.Iotas .tc 32 [1]
  reduces_S512x1000_S512 : S512x1000.Reduces [1] S512
  shapeCasts_S512_S512x1 : S512.ShapeCasts S512x1
  broadcasts_S512x1_S512x1000 : S512x1.Broadcasts S512x1000
  broadcasts_S1x1000_S512x1000 : S1x1000.Broadcasts S512x1000
  concatenates_S512x1_S512x1_S512x1_S512x3_d1 : Shape.Concatenates [S512x1, S512x1, S512x1] S512x3 1
  inb_S512x3_S512x3_0_0 : ∀ a, (![0, 0] : Fin 2 → Nat) a + S512x3.size a ≤ S512x3.size a
  h_S512x3 : 0 < S512x3.numel
  slices_S65536x3_S65536x1_0_0 : S65536x3.Slices ![0, 0] S65536x1
  shapeCasts_S65536x1_S65536 : S65536x1.ShapeCasts S65536
  reducesTo_S65536_S_d0 : S65536.ReducesTo [0] S_
  h_S_ : 0 < S_.numel
  slices_S65536x3_S65536x1_0_1 : S65536x3.Slices ![0, 1] S65536x1
  slices_S65536x3_S65536x1_0_2 : S65536x3.Slices ![0, 2] S65536x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S65536x1000.size a
  hwx0_0 : ∀ i : grid0.Coords, EltTy.bits .f32 = 32 ∨ (Rect.block (s := S65536x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .i32 = 32 ∨ (Rect.block (s := S65536x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S65536x3.size a
  hwx0_2 : ∀ i : grid0.Coords, EltTy.bits .f32 = 32 ∨ (Rect.block (s := S65536x3) S512x3.size (cc0_transform_2 i) (hinb0_2 i)).WholeWords (EltTy.packing .f32)

variable [Facts₀]

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S65536 : Shape := ⟨1, ![65536]⟩
abbrev S65536x1 : Shape := ⟨2, ![65536, 1]⟩
abbrev S1000 : Shape := ⟨1, ![1000]⟩
abbrev S1x1000 : Shape := ⟨2, ![1, 1000]⟩
abbrev S_ : Shape := ⟨0, ![]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1, .i32⟩
  | .hbm, ⟨3, _⟩ => ⟨S1000, .i32⟩
  | .hbm, ⟨4, _⟩ => ⟨S1x1000, .i32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536x1, .f32⟩
  | .hbm, ⟨11, _⟩ => ⟨S65536x1000, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x1, .f32⟩
  | .hbm, ⟨18, _⟩ => ⟨S65536x1000, .f32⟩
  | .hbm, ⟨19, _⟩ => ⟨S65536x1000, .f32⟩
  | .hbm, ⟨20, _⟩ => ⟨S_, .i32⟩
  | .hbm, ⟨21, _⟩ => ⟨S65536x1, .i32⟩
  | .hbm, ⟨22, _⟩ => ⟨S65536x1, .i1⟩
  | .hbm, ⟨23, _⟩ => ⟨S_, .i32⟩
  | .hbm, ⟨24, _⟩ => ⟨S65536x1, .i32⟩
  | .hbm, ⟨25, _⟩ => ⟨S65536x1, .i32⟩
  | .hbm, ⟨26, _⟩ => ⟨S65536x1, .i32⟩
  | .hbm, ⟨27, _⟩ => ⟨S65536x1x1, .i32⟩
  | .hbm, ⟨28, _⟩ => ⟨S1, .i32⟩
  | .hbm, ⟨29, _⟩ => ⟨S_, .i32⟩
  | .hbm, ⟨30, _⟩ => ⟨S65536x1x1, .i32⟩
  | .hbm, ⟨31, _⟩ => ⟨S65536x1x1, .i1⟩
  | .hbm, ⟨32, _⟩ => ⟨S1x1x1, .i32⟩
  | .hbm, ⟨33, _⟩ => ⟨S65536x1x1, .i32⟩
  | .hbm, ⟨34, _⟩ => ⟨S65536x1x1, .i1⟩
  | .hbm, ⟨35, _⟩ => ⟨S65536x1x1, .i1⟩
  | .hbm, ⟨36, _⟩ => ⟨S_, .i1⟩
  | .hbm, ⟨37, _⟩ => ⟨S65536x1, .i1⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S65536, .f32⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S65536x1, .f32⟩
  | .hbm, ⟨53, _⟩ => ⟨S65536x1000, .f32⟩
  | .hbm, ⟨54, _⟩ => ⟨S65536x1000, .f32⟩
  | .hbm, ⟨55, _⟩ => ⟨S65536x1000, .f32⟩
  | .hbm, ⟨56, _⟩ => ⟨S_, .f32⟩
  | .hbm, ⟨57, _⟩ => ⟨S65536, .f32⟩
  | .hbm, ⟨58, _⟩ => ⟨S65536x1, .f32⟩
  | .hbm, ⟨59, _⟩ => ⟨S65536x1000, .f32⟩
  | .hbm, ⟨60, _⟩ => ⟨S65536x1000, .f32⟩
  | .hbm, ⟨61, _⟩ => ⟨S65536x1000, .i32⟩
  | .hbm, ⟨62, _⟩ => ⟨S65536x1000, .i32⟩
  | .hbm, ⟨63, _⟩ => ⟨S65536x1000, .i1⟩
  | .hbm, ⟨64, _⟩ => ⟨S65536x1000, .i32⟩
  | .hbm, ⟨65, _⟩ => ⟨S65536x1000, .i32⟩
  | .hbm, ⟨66, _⟩ => ⟨S65536x1000, .i1⟩
  | .hbm, ⟨67, _⟩ => ⟨S_, .f32⟩
  | .hbm, ⟨68, _⟩ => ⟨S65536x1000, .f32⟩
  | .hbm, ⟨69, _⟩ => ⟨S65536x1000, .f32⟩
  | .hbm, ⟨70, _⟩ => ⟨S_, .f32⟩
  | .hbm, ⟨71, _⟩ => ⟨S_, .f32⟩
  | .hbm, ⟨72, _⟩ => ⟨S65536x1000, .f32⟩
  | .hbm, ⟨73, _⟩ => ⟨S65536x1000, .f32⟩
  | .hbm, ⟨74, _⟩ => ⟨S65536x1000, .f32⟩
  | .hbm, ⟨75, _⟩ => ⟨S_, .f32⟩
  | .hbm, ⟨76, _⟩ => ⟨S65536x1000, .f32⟩
  | .hbm, ⟨77, _⟩ => ⟨S65536x1000, .f32⟩
  | .hbm, ⟨78, _⟩ => ⟨S_, .f32⟩
  | .hbm, ⟨79, _⟩ => ⟨S_, .f32⟩
  | .hbm, ⟨80, _⟩ => ⟨S65536x1000, .f32⟩
  | .hbm, ⟨81, _⟩ => ⟨S65536x1000, .f32⟩
  | .hbm, ⟨82, _⟩ => ⟨S65536x1000, .f32⟩
  | .hbm, ⟨83, _⟩ => ⟨S65536x1000, .i32⟩
  | .hbm, ⟨84, _⟩ => ⟨S65536x1000, .i32⟩
  | .hbm, ⟨85, _⟩ => ⟨S65536x1000, .i32⟩
  | .hbm, ⟨86, _⟩ => ⟨S65536x1000, .f32⟩
  | .hbm, ⟨87, _⟩ => ⟨S_, .f32⟩
  | .hbm, ⟨88, _⟩ => ⟨S65536x1000, .f32⟩
  | .hbm, ⟨89, _⟩ => ⟨S65536x1000, .f32⟩
  | .hbm, ⟨90, _⟩ => ⟨S65536x1000, .f32⟩
  | .hbm, ⟨91, _⟩ => ⟨S_, .f32⟩
  | .hbm, ⟨92, _⟩ => ⟨S_, .f32⟩
  | .hbm, ⟨93, _⟩ => ⟨S65536x1000, .f32⟩
  | .hbm, ⟨94, _⟩ => ⟨S65536x1000, .f32⟩
  | .hbm, ⟨95, _⟩ => ⟨S_, .f32⟩
  | .hbm, ⟨96, _⟩ => ⟨S65536, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S65536, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v3 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩
abbrev main_v7 : Ref sig .tc := ⟨.hbm, 46, rfl⟩
abbrev main_cst_1 : Ref sig .tc := ⟨.hbm, 47, rfl⟩
abbrev main_v8 : Ref sig .tc := ⟨.hbm, 48, rfl⟩
abbrev main_cst_2 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_4 : Ref sig .tc := ⟨.hbm, 67, rfl⟩
abbrev main_v25 : Ref sig .tc := ⟨.hbm, 68, rfl⟩
abbrev main_v26 : Ref sig .tc := ⟨.hbm, 69, rfl⟩
abbrev main_cst_5 : Ref sig .tc := ⟨.hbm, 70, rfl⟩
abbrev main_call2_v0 : Ref sig .tc := ⟨.hbm, 71, rfl⟩
abbrev main_call2_v1 : Ref sig .tc := ⟨.hbm, 72, rfl⟩
abbrev main_v27 : Ref sig .tc := ⟨.hbm, 73, rfl⟩
abbrev main_v28 : Ref sig .tc := ⟨.hbm, 74, rfl⟩
abbrev main_cst_6 : Ref sig .tc := ⟨.hbm, 75, rfl⟩
abbrev main_v29 : Ref sig .tc := ⟨.hbm, 76, rfl⟩
abbrev main_v30 : Ref sig .tc := ⟨.hbm, 77, rfl⟩
abbrev main_cst_7 : Ref sig .tc := ⟨.hbm, 78, rfl⟩
abbrev main_call3_v0 : Ref sig .tc := ⟨.hbm, 79, rfl⟩
abbrev main_call3_v1 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_8 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_9 : Ref sig .tc := ⟨.hbm, 91, rfl⟩
abbrev main_call4_v0 : Ref sig .tc := ⟨.hbm, 92, rfl⟩
abbrev main_call4_v1 : Ref sig .tc := ⟨.hbm, 93, rfl⟩
abbrev main_v40 : Ref sig .tc := ⟨.hbm, 94, rfl⟩
abbrev main_cst_10 : Ref sig .tc := ⟨.hbm, 95, rfl⟩
abbrev main_v41 : Ref sig .tc := ⟨.hbm, 96, rfl⟩
abbrev main_cst_11 : Ref sig .tc := ⟨.hbm, 97, rfl⟩
abbrev main_v42 : Ref sig .tc := ⟨.hbm, 98, rfl⟩
abbrev main_cst_12 : Ref sig .tc := ⟨.hbm, 99, rfl⟩
abbrev main_v43 : Ref sig .tc := ⟨.hbm, 100, rfl⟩
abbrev main_cst_13 : Ref sig .tc := ⟨.hbm, 101, rfl⟩
abbrev main_v44 : Ref sig .tc := ⟨.hbm, 102, rfl⟩
abbrev main_cst_14 : Ref sig .tc := ⟨.hbm, 103, rfl⟩
abbrev main_v45 : Ref sig .tc := ⟨.hbm, 104, rfl⟩
abbrev main_cst_15 : Ref sig .tc := ⟨.hbm, 105, rfl⟩
abbrev main_v46 : Ref sig .tc := ⟨.hbm, 106, rfl⟩
abbrev main_v47 : Ref sig .tc := ⟨.hbm, 107, rfl⟩
abbrev main_cst_16 : Ref sig .tc := ⟨.hbm, 108, rfl⟩
abbrev main_v48 : Ref sig .tc := ⟨.hbm, 109, rfl⟩
abbrev main_v49 : Ref sig .tc := ⟨.hbm, 110, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S1000_S1x1000_1 : S1000.BroadcastsInDim S1x1000 (![1] : Fin 1 → Fin S1x1000.rank)
  reducesTo_S65536x1000_S65536_d1 : S65536x1000.ReducesTo [1] S65536
  h_S_ : 0 < S_.numel
  bcast_S_S65536 : S_.BroadcastsInDim S65536 (![] : Fin 0 → Fin S65536.rank)
  bcast_S65536x1_S65536x1000_0_1 : S65536x1.BroadcastsInDim S65536x1000 (![0, 1] : Fin 2 → Fin S65536x1000.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  reducesTo_S65536x1_S_d0_1 : S65536x1.ReducesTo [0, 1] S_
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  reducesTo_S65536_S_d0 : S65536.ReducesTo [0] S_
  gather_S65536x1000_S65536x1x1_S65536x1_n_1_0_0_1_2_11_wf : GatherDims.WF S65536x1000 S65536x1x1 S65536x1 [] [1] [0] [1] [0] 2 ![1, 1]

variable [Facts₀]

def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf

class Facts : Prop extends Facts₀ where

variable [Facts]
-- ==== Proof.Spec.lean ====
/-
  The loss both programs compute, written once over the extended reals.

  A row is a vector x of 1000 logits with a label t.  With M = max x, s_k = x_k − M, e_k = exp s_k, Z = Σ e_k:
  the log-probabilities are s_k − log Z and the probabilities e_k / Z.  Per row three numbers are formed:
  the cross entropy (−log-probability of the label), the weighted sum over the classes below the label of
  ((t − k)/1000) · log(1 − p_k), and the sum over the classes above the label of log(1 − p_k).  Each is averaged
  over the 65536 rows and the result is  ce − ½ · (over + under).

  The kernel forms the cross entropy as a masked sum over the classes (the class equal to the label) and takes the
  weight as a difference of two converted integers; the reference picks the label's entry and negates the mean,
  and converts the integer difference.  `lossK` and `lossR` are these two spellings; Algebra.lean shows them
  equal when every logit is a real number and every label lies in [0, 1000).
-/
import Idealize.ShloMosaic.PureOps.Ideal
import Idealize.ShloMosaic.Lib.ValueIdx

noncomputable section

open scoped BigOperators

namespace Cert.Spec

open Idealize.ShloMosaic Idealize.ShloMosaic.ValueIdx

/-! ## The literal words, never evaluated unless a law needs their value -/

abbrev ninf : EReal := Ideal.ofBits .f32 0xFF800000#32
abbrev one : EReal := Ideal.ofBits .f32 0x3F800000#32
abbrev thousand : EReal := Ideal.ofBits .f32 0x447A0000#32
abbrev batch : EReal := Ideal.ofBits .f32 0x47800000#32
abbrev half : EReal := Ideal.ofBits .f32 0x3F000000#32

/-- Class k as the 32-bit word both programs compare the label with. -/
abbrev col (k : Fin 1000) : BitVec 32 := BitVec.ofNat 32 k.val

/-! ## One row -/

/-- The row's maximum, folded from −∞. -/
def rowMax (x : Fin 1000 → EReal) : EReal := (Finset.univ : Finset (Fin 1000)).fold max ninf x
def shifted (x : Fin 1000 → EReal) (k : Fin 1000) : EReal := x k - rowMax x
def expd (x : Fin 1000 → EReal) (k : Fin 1000) : EReal := Ideal.exp (shifted x k)
def sumExp (x : Fin 1000 → EReal) : EReal := ∑ k : Fin 1000, expd x k
/-- log-softmax. -/
def logp (x : Fin 1000 → EReal) (k : Fin 1000) : EReal := shifted x k - Ideal.log (sumExp x)
/-- softmax. -/
def prob (x : Fin 1000 → EReal) (k : Fin 1000) : EReal := Ideal.div (expd x k) (sumExp x)
def oneMinus (x : Fin 1000 → EReal) (k : Fin 1000) : EReal := one - prob x k

/-- The kernel's cross entropy of a row: the sum over the classes of −logp where the class is the label, else 0. -/
def ceRow (x : Fin 1000 → EReal) (t : BitVec 32) : EReal :=
  ∑ k : Fin 1000, Scalar.select (IntOp.cmpi .eq (col k) t) (0 - logp x k) 0

/-- The class the reference's gather reads for label t: t read signed, clamped into [0, 999]. -/
def tIdx (t : BitVec 32) : Fin 1000 := ⟨min t.toInt.toNat 999, by omega⟩
/-- The reference's picked log-probability. -/
def picked (x : Fin 1000 → EReal) (t : BitVec 32) : EReal := logp x (tIdx t)

def lowerLog (x : Fin 1000 → EReal) (t : BitVec 32) (k : Fin 1000) : EReal :=
  Ideal.log (Scalar.select (IntOp.cmpi .slt (col k) t) (oneMinus x k) one)
def upperLog (x : Fin 1000 → EReal) (t : BitVec 32) (k : Fin 1000) : EReal :=
  Ideal.log (Scalar.select (IntOp.cmpi .sgt (col k) t) (oneMinus x k) one)

/-- The kernel's weight: the label and the class converted to reals, subtracted, over 1000. -/
def weightK (t : BitVec 32) (k : Fin 1000) : EReal :=
  Ideal.div (((t.toInt : ℝ) : EReal) - (((col k).toInt : ℝ) : EReal)) thousand
/-- The reference's weight: the 32-bit difference converted, over 1000. -/
def weightR (t : BitVec 32) (k : Fin 1000) : EReal :=
  Ideal.div ((((t - col k).toInt : ℝ)) : EReal) thousand

def underRowWith (w : BitVec 32 → Fin 1000 → EReal) (x : Fin 1000 → EReal) (t : BitVec 32) : EReal :=
  ∑ k : Fin 1000, Scalar.select (IntOp.cmpi .slt (col k) t) (w t k * lowerLog x t k) 0
def overRow (x : Fin 1000 → EReal) (t : BitVec 32) : EReal := ∑ k : Fin 1000, upperLog x t k

/-! ## The batch -/

abbrev Arr : Type := (⟨2, ![65536, 1000]⟩ : Shape).Idx → EReal
abbrev Lab : Type := (⟨1, ![65536]⟩ : Shape).Idx → BitVec 32

/-- Row i of the logits. -/
def row (X : Arr) (i : (⟨1, ![65536]⟩ : Shape).Idx) : Fin 1000 → EReal :=
  fun k => X (ix2 (⟨(i 0).val, (i 0).isLt⟩ : Fin 65536) k)

/-- A per-row number summed over the rows. -/
def total (f : (Fin 1000 → EReal) → BitVec 32 → EReal) (X : Arr) (T : Lab) : EReal :=
  ∑ i : (⟨1, ![65536]⟩ : Shape).Idx, f (row X i) (T i)

/-- ce − ½ · (over + under). -/
def combine (ce ov un : EReal) : EReal := ce - half * (ov + un)

/-- The kernel's spelling. -/
def lossK (X : Arr) (T : Lab) : EReal :=
  combine (Ideal.div (total ceRow X T) batch) (Ideal.div (total overRow X T) batch)
    (Ideal.div (total (underRowWith weightK) X T) batch)

/-- The reference's spelling. -/
def lossR (X : Arr) (T : Lab) : EReal :=
  combine (-(Ideal.div (total picked X T) batch)) (Ideal.div (total overRow X T) batch)
    (Ideal.div (total (underRowWith weightR) X T) batch)

end Cert.Spec

end
-- ==== Proof.Algebra.lean ====
/-
  The two spellings of the loss agree on real logits and labels in [0, 1000).

  They differ in two places.  The weight: for a label t with 0 ≤ t < 1000 and a class k < 1000 the 32-bit
  difference t − k does not wrap, so converting the difference and subtracting the conversions give the same real.
  The cross entropy: exactly one class equals the label, so the masked sum over the classes is the single term
  −logp at that class; and a sum of negated REAL numbers is the negated sum (in the extended reals −(a + b) =
  −a + −b fails at a = ⊤, b = ⊥, so finiteness is needed here and only here).  Every log-probability of a row of
  real logits is real: the row maximum M is real, every x_k − M is real, every exponential is a positive real, so
  is their sum Z, and log Z is real.  Division by the batch size 65536 is multiplication by a real, which commutes
  with negation at every extended real.
-/
import proofs.«400552_j14242111553840_1_alg».proof.Proof.Spec
import Idealize.ShloMosaic.Lib.Affine
import Idealize.ShloMosaic.Lib.ValueIdx
import Mathlib.Data.EReal.Operations
import Mathlib.Data.Finset.Fold
import Mathlib.Analysis.SpecialFunctions.Log.Basic

noncomputable section

open scoped BigOperators

namespace Cert.Algebra

open Cert.Spec Idealize.ShloMosaic Idealize.ShloMosaic.ValueIdx

/-! ## The two literals whose value matters -/

/-- The word of −∞ denotes ⊥. -/
theorem ninf_eq : ninf = ⊥ := by
  simp [Ideal.ofBits, Ideal.ieee]

/-- The word of 65536.0 denotes the real 65536. -/
theorem batch_eq : batch = ((65536 : ℝ) : EReal) := by
  simp [Ideal.ofBits, Ideal.ieee, -EReal.coe_mul]; norm_num

/-! ## Integers: no wrap below 1000 -/

/-- A class index below 1000 reads back signed as itself. -/
theorem col_toInt (k : Fin 1000) : (col k).toInt = (k.val : Int) := by
  have hk := k.isLt
  rw [BitVec.toInt_ofNat']
  exact Int.bmod_eq_of_le (by omega) (by omega)

/-- The 32-bit difference of a label in [0, 1000) and a class does not wrap. -/
theorem sub_toInt {t : BitVec 32} (ht : 0 ≤ t.toInt ∧ t.toInt < 1000) (k : Fin 1000) :
    (t - col k).toInt = t.toInt - (k.val : Int) := by
  have hk := k.isLt
  rw [BitVec.toInt_sub, col_toInt]
  exact Int.bmod_eq_of_le (by omega) (by omega)

/-- Converting the difference is subtracting the conversions. -/
theorem weightR_eq_weightK {t : BitVec 32} (ht : 0 ≤ t.toInt ∧ t.toInt < 1000) (k : Fin 1000) :
    weightR t k = weightK t k := by
  unfold weightR weightK
  rw [sub_toInt ht k, col_toInt k, Int.cast_sub, EReal.coe_sub]

/-- The weighted sums below the label agree. -/
theorem underRow_eq (x : Fin 1000 → EReal) {t : BitVec 32} (ht : 0 ≤ t.toInt ∧ t.toInt < 1000) :
    underRowWith weightR x t = underRowWith weightK x t := by
  unfold underRowWith
  refine Finset.sum_congr rfl (fun k _ => ?_)
  rw [weightR_eq_weightK ht k]

/-! ## The label's class is the only one the mask keeps -/

/-- A class equals the label exactly when it is the class the gather reads. -/
theorem col_eq_iff {t : BitVec 32} (ht : 0 ≤ t.toInt ∧ t.toInt < 1000) (k : Fin 1000) :
    col k = t ↔ k = tIdx t := by
  have hk := k.isLt
  constructor
  · intro h
    have h1 : (k.val : Int) = t.toInt := by rw [← col_toInt k, h]
    apply Fin.ext
    simp only [tIdx]
    omega
  · intro h
    apply BitVec.eq_of_toInt_eq
    rw [col_toInt, h]
    simp only [tIdx]
    omega

/-- The masked sum over the classes is the one term at the label. -/
theorem ceRow_eq (x : Fin 1000 → EReal) {t : BitVec 32} (ht : 0 ≤ t.toInt ∧ t.toInt < 1000) :
    ceRow x t = -picked x t := by
  have hterm : ∀ k : Fin 1000,
      Scalar.select (IntOp.cmpi .eq (col k) t) (0 - logp x k) 0
        = if k = tIdx t then (0 - logp x k) else 0 := by
    intro k
    by_cases hk : k = tIdx t
    · rw [if_pos hk, IntOp.cmpi_eq.2 ((col_eq_iff ht k).2 hk), select_one]
    · rw [if_neg hk, eq_zero_of_ne_one (fun h => hk ((col_eq_iff ht k).1 (IntOp.cmpi_eq.1 h))),
        select_zero]
  unfold ceRow picked
  rw [Finset.sum_congr rfl (fun k _ => hterm k), Finset.sum_ite_eq', if_pos (Finset.mem_univ _), zero_sub]

/-! ## Finiteness -/

/-- A finite sum of reals, formed in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of negated reals is the negated sum. -/
theorem sum_neg_coe {ι : Type} (s : Finset ι) (q : ι → ℝ) :
    ∑ i ∈ s, -((q i : ℝ) : EReal) = -∑ i ∈ s, ((q i : ℝ) : EReal) := by
  rw [coe_sum, ← EReal.coe_neg, ← Finset.sum_neg_distrib, ← coe_sum]
  simp only [EReal.coe_neg]

/-- The maximum of 1000 reals, folded from −∞, is a real. -/
theorem rowMax_real (r : Fin 1000 → ℝ) : ∃ m : ℝ, rowMax (fun k => (r k : EReal)) = (m : EReal) := by
  have hbot : rowMax (fun k => (r k : EReal)) ≠ ⊥ := by
    apply ne_of_gt
    unfold rowMax
    rw [Finset.lt_fold_max]
    exact Or.inr ⟨⟨0, by norm_num⟩, Finset.mem_univ _, EReal.bot_lt_coe _⟩
  have htop : rowMax (fun k => (r k : EReal)) ≠ ⊤ := by
    apply ne_of_lt
    unfold rowMax
    rw [Finset.fold_max_lt, ninf_eq]
    exact ⟨bot_lt_top, fun k _ => EReal.coe_lt_top _⟩
  exact ⟨_, (EReal.coe_toReal htop hbot).symm⟩

/-- Every log-probability of a row of real logits is a real. -/
theorem logp_real (x : Fin 1000 → EReal) (hx : ∀ k, ∃ r : ℝ, x k = (r : EReal)) (k : Fin 1000) :
    ∃ q : ℝ, logp x k = (q : EReal) := by
  choose r hr using hx
  obtain rfl : x = fun k => (r k : EReal) := funext hr
  obtain ⟨m, hm⟩ := rowMax_real r
  have hsh : ∀ j, shifted (fun k => (r k : EReal)) j = ((r j - m : ℝ) : EReal) := by
    intro j
    unfold shifted
    rw [hm, EReal.coe_sub]
  have hex : ∀ j, expd (fun k => (r k : EReal)) j = ((Real.exp (r j - m) : ℝ) : EReal) := by
    intro j
    unfold expd
    rw [hsh, Ideal.exp_coe]
  have hsum : sumExp (fun k => (r k : EReal)) = ((∑ j : Fin 1000, Real.exp (r j - m) : ℝ) : EReal) := by
    unfold sumExp
    rw [Finset.sum_congr rfl (fun j _ => hex j), coe_sum]
  have hpos : 0 < ∑ j : Fin 1000, Real.exp (r j - m) :=
    Finset.sum_pos (fun j _ => Real.exp_pos _) ⟨⟨0, by norm_num⟩, Finset.mem_univ _⟩
  refine ⟨(r k - m) - Real.log (∑ j : Fin 1000, Real.exp (r j - m)), ?_⟩
  unfold logp
  rw [hsh, hsum, Ideal.log_coe, if_neg (not_le.2 hpos), ← EReal.coe_sub]

/-! ## The mean -/

/-- Dividing by the batch size commutes with negation, at every extended real. -/
theorem div_neg_batch (s : EReal) : Ideal.div (-s) batch = -(Ideal.div s batch) := by
  rw [batch_eq, Ideal.div_coe (by norm_num) (-s), Ideal.div_coe (by norm_num) s, neg_mul]

/-! ## The two losses -/

theorem lossR_eq_lossK (X : Arr) (T : Lab)
    (hX : ∀ i, ∃ r : ℝ, X i = (r : EReal))
    (hT : ∀ i, 0 ≤ (T i).toInt ∧ (T i).toInt < 1000) :
    lossR X T = lossK X T := by
  have hun : total (underRowWith weightR) X T = total (underRowWith weightK) X T := by
    unfold total
    exact Finset.sum_congr rfl (fun i _ => underRow_eq _ (hT i))
  have hce : total ceRow X T = -(total picked X T) := by
    have hq : ∀ i, ∃ q : ℝ, picked (row X i) (T i) = (q : EReal) := fun i =>
      logp_real (row X i) (fun k => hX _) _
    choose q hq using hq
    unfold total
    rw [Finset.sum_congr rfl (fun i _ => (ceRow_eq (row X i) (hT i)).trans (congrArg Neg.neg (hq i))),
      Finset.sum_congr rfl (fun i _ => hq i), sum_neg_coe]
  unfold lossR lossK
  rw [hun, hce, div_neg_batch]

end Cert.Algebra

end
-- ==== Proof.PreDecode.lean ====
/-
  The precondition `finite_inputs`, decoded into plain facts about the two inputs.

  The printed predicate is the conjunction (a one-bit `and`) of two universal conjunctions, each a reduction by `and` from 1 of a
  one-bit array over all of its axes into the scalar shape. The claim that its one result is 1 therefore says that both reductions are 1,
  hence that every element of each reduced array is 1:
    • at every index i of the [65536, 1000] array, |X i| < +∞ in the extended reals, where |x| = max x (−x) and the
      bound's pattern 0x7F800000 denotes ⊤. Neither ⊥ nor ⊤ passes (max ⊥ ⊤ = max ⊤ ⊥ = ⊤, not below ⊤), so X i is a real;
    • at every index i of the [65536] array, T i ≥ 0 and T i < 1000 as signed words, i.e. 0 ≤ (T i).toInt < 1000.
-/
import proofs.«400552_j14242111553840_1_alg».proof.Pre_finite_inputs
import proofs.«400552_j14242111553840_1_alg».proof.Proof.Gen.Pre_finite_inputs
import Idealize.ShloMosaic.Lib.ReduceAll
import Idealize.ShloMosaic.Lib.ValueIdx
import Idealize.ShloMosaic.Lib.Affine

noncomputable section

namespace Cert.PreDecode

open Idealize.ShloMosaic
open Cert.Pre_finite_inputs

/-- The scalar shape has one index. -/
instance : Subsingleton S_.Idx := ⟨fun a b => funext fun d => d.elim0⟩

/-- The f32 pattern 0x7F800000 (exponent all ones, significand zero, sign clear) denotes +∞. -/
theorem top_bits : Ideal.ofBits .f32 0x7F800000#32 = ⊤ := by simp [Ideal.ofBits, Ideal.ieee]

/-- An extended real whose absolute value max x (−x) is strictly below ⊤ is a real number:
    at ⊥ the maximum is max ⊥ ⊤ = ⊤ and at ⊤ it is max ⊤ ⊥ = ⊤, neither below ⊤. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- THE PRECONDITION DECODED: every entry of X is a real number and every word of T lies in [0, 1000) signed. -/
theorem pre_decode (X : FVec Ideal Cert.Pre_finite_inputs.S65536x1000 .f32) (T : IVec Cert.Pre_finite_inputs.S65536 32)
    (h : Cert.Pre_finite_inputs.fn (F := Ideal) X T = fun _ => 1#1) :
    (∀ i, ∃ r : ℝ, X i = (r : EReal)) ∧ (∀ i, 0 ≤ (T i).toInt ∧ (T i).toInt < 1000) := by
  -- the predicate's one result, read at the scalar shape's index: an `and` of the two reductions
  have h0 := congrFun h ValueIdx.ix0
  dsimp only [fn] at h0
  obtain ⟨h3, h9⟩ := IntOp.andi_eq_one.1 h0
  refine ⟨fun i => ?_, fun i => ?_⟩
  · -- the first reduction is 1, so its operand is 1 at i: |X i| < the bound, elementwise
    have e : Ideal.cmp .olt (max (X i) (-(X i))) (Ideal.ofBits .f32 0x7F800000#32) = 1#1 :=
      Host.reduce_andi_all _ _ _ _ _ h3 i
    rw [top_bits] at e
    exact real_of_abs_lt_top _ e
  · -- the second reduction is 1, so its operand is 1 at i: (T i ≥ 0) and (T i < 1000), signed
    have e : IntOp.andi (IntOp.cmpi .sge (T i) 0#32) (IntOp.cmpi .slt (T i) 1000#32) = 1#1 :=
      Host.reduce_andi_all _ _ _ _ _ h9 i
    obtain ⟨a, b⟩ := IntOp.andi_eq_one.1 e
    rw [IntOp.cmpi_sge, show (0#32 : BitVec 32).toInt = 0 from by decide] at a
    rw [IntOp.cmpi_slt, show (1000#32 : BitVec 32).toInt = 1000 from by decide] at b
    exact ⟨a, b⟩

end Cert.PreDecode

end
-- ==== Proof.RowVal.lean ====
/-
  The three numbers a row contributes, by output column: column 0 the cross entropy, column 1 the weighted sum
  over the classes below the label, column 2 the sum over the classes above it.
-/
import proofs.«400552_j14242111553840_1_alg».proof.Proof.Spec

noncomputable section

namespace Cert.Spec

open Idealize.ShloMosaic

/-- The row's entry in output column c. -/
def rowVal (x : Fin 1000 → EReal) (t : BitVec 32) (c : Fin 3) : EReal :=
  match c with
  | ⟨0, _⟩ => ceRow x t
  | ⟨1, _⟩ => underRowWith weightK x t
  | ⟨2, _⟩ => overRow x t

theorem rowVal_zero (x : Fin 1000 → EReal) (t : BitVec 32) : rowVal x t 0 = ceRow x t := rfl
theorem rowVal_one (x : Fin 1000 → EReal) (t : BitVec 32) : rowVal x t 1 = underRowWith weightK x t := rfl
theorem rowVal_two (x : Fin 1000 → EReal) (t : BitVec 32) : rowVal x t 2 = overRow x t := rfl

end Cert.Spec

end
-- ==== Proof.KernelBlock.lean ====
/-
  What the idealized body stores into its output block, read at one index.

  The body loads a block of 512 rows of 1000 logits and the 512 labels of those rows, and stores a block of 512 rows
  of three numbers.  Read at entry (q, c), every operation of the body is an operation on row q alone: a reduction
  along the class axis is the row's sum (or its maximum folded from −∞), a column spread over the classes reads the
  column's entry of row q, the class counter spread over the rows reads the class, and the three columns set side by
  side read the column c names.  Composing these readings, entry (q, c) is the specification's number of column c for
  the row's logits and the row's label: the cross entropy, the weighted sum of log(1 − p) over the classes below the
  label, the sum of log(1 − p) over the classes above it.
-/
import proofs.«400552_j14242111553840_1_alg».proof.Proof.RowVal
import proofs.«400552_j14242111553840_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelBlock

open Idealize.ShloMosaic Idealize.ShloMosaic.ValueIdx Cert.KernelIdeal Cert.KernelIdeal.Gen Cert.Spec

/-! ## The layout operations of the body, read at one index -/

/-- The sum along the class axis, read at row q, is the sum over the classes of the row's entries. -/
theorem sum_row (v : FVec Ideal S512x1000 .f32) (hφ : FKind.Formats .f32)
    (hacc : (0x00000000#32 : BitVec 32) = 0x00000000#32) (q : Fin 512) :
    multiReduction (F := Ideal) .add [1] S512 v 0x00000000#32 reduces_S512x1000_S512 hφ hacc (ix1 q)
      = ∑ k : Fin 1000, v (ix2 q k) := by
  refine (Ideal.multiReduction_add_single v 0x00000000#32 reduces_S512x1000_S512 hφ hacc (ix1 q)).trans ?_
  refine Finset.sum_congr rfl fun k _ => ?_
  exact congrArg v (funext fun a => Fin.ext (by match a with | ⟨0, _⟩ => rfl | ⟨1, _⟩ => rfl))

/-- The maximum along the class axis, read at row q, is the row's maximum folded from −∞. -/
theorem max_row (v : FVec Ideal S512x1000 .f32) (hφ : FKind.Formats .f32)
    (hacc : (0xFF800000#32 : BitVec 32) = 0xFF800000#32) (q : Fin 512) :
    multiReduction (F := Ideal) .maximumf [1] S512 v 0xFF800000#32 reduces_S512x1000_S512 hφ hacc (ix1 q)
      = rowMax (fun k : Fin 1000 => v (ix2 q k)) := by
  refine (Ideal.multiReduction_maximumf_single v 0xFF800000#32 reduces_S512x1000_S512 hφ hacc (ix1 q)).trans ?_
  unfold rowMax
  refine congrArg (Finset.fold max _ · _) ?_
  funext k
  exact congrArg v (funext fun a => Fin.ext (by match a with | ⟨0, _⟩ => rfl | ⟨1, _⟩ => rfl))

/-- A vector of 512 numbers viewed as a column reads, at (q, 0), its entry q. -/
theorem cast_col {α : Type} (v : S512.Idx → α) (q : Fin 512) :
    shapeCast S512x1 v shapeCasts_S512_S512x1 (ix2 q (0 : Fin 1)) = v (ix1 q) := by
  refine shapeCast_apply v shapeCasts_S512_S512x1 (ix2 q (0 : Fin 1)) (ix1 q) ?_
  rw [Shape.rowMajor_val_one, Shape.rowMajor_val_two]
  show q.val = q.val * 1 + 0
  omega

/-- A column spread over the 1000 classes reads, at (q, k), the column's entry (q, 0). -/
theorem bcast_col {α : Type} (v : S512x1.Idx → α) (q : Fin 512) (k : Fin 1000) :
    broadcastTo S512x1000 v broadcasts_S512x1_S512x1000 (ix2 q k) = v (ix2 q (0 : Fin 1)) := by
  refine broadcastTo_apply v broadcasts_S512x1_S512x1000 (ix2 q k) (ix2 q (0 : Fin 1)) fun a => ?_
  match a with
  | ⟨0, _⟩ => show q.val = if (512 : Nat) = 1 then 0 else q.val; rw [if_neg (by decide)]
  | ⟨1, _⟩ => show (0 : Nat) = if (1 : Nat) = 1 then 0 else k.val; rw [if_pos rfl]

/-- A row spread over the 512 rows reads, at (q, k), the row's entry (0, k). -/
theorem bcast_row {α : Type} (v : S1x1000.Idx → α) (q : Fin 512) (k : Fin 1000) :
    broadcastTo S512x1000 v broadcasts_S1x1000_S512x1000 (ix2 q k) = v (ix2 (0 : Fin 1) k) := by
  refine broadcastTo_apply v broadcasts_S1x1000_S512x1000 (ix2 q k) (ix2 (0 : Fin 1) k) fun a => ?_
  match a with
  | ⟨0, _⟩ => show (0 : Nat) = if (1 : Nat) = 1 then 0 else q.val; rw [if_pos rfl]
  | ⟨1, _⟩ => show k.val = if (1000 : Nat) = 1 then 0 else k.val; rw [if_neg (by decide)]

/-- The class counter along the class axis reads, at (0, k), the word of class k. -/
theorem iota_col (k : Fin 1000) :
    iota .tc S1x1000 32 [1] iota_S1x1000_d1_w32 (ix2 (0 : Fin 1) k) = col k :=
  iota_single_apply .tc S1x1000 32 1 iota_S1x1000_d1_w32 (ix2 (0 : Fin 1) k)

/-- Three columns set side by side read, at (q, 0), the first column's entry (q, 0) … -/
theorem concat_zero {α : Type} (a b c : S512x1.Idx → α) (q : Fin 512) :
    concatenate S512x3 1 [⟨S512x1, a⟩, ⟨S512x1, b⟩, ⟨S512x1, c⟩] concatenates_S512x1_S512x1_S512x1_S512x3_d1 (ix2 q (0 : Fin 3))
      = a (ix2 q (0 : Fin 1)) := by
  refine concatenate_apply_piece (1 : Fin S512x3.rank) [⟨S512x1, a⟩, ⟨S512x1, b⟩, ⟨S512x1, c⟩]
    concatenates_S512x1_S512x1_S512x1_S512x3_d1 (ix2 q (0 : Fin 3))
    0 (by show 0 < 3; omega) S512x1 a rfl rfl 0 rfl (ix2 q (0 : Fin 1)) (fun b' hb => ?_) rfl
  match b' with
  | ⟨0, _⟩ => rfl
  | ⟨1, _⟩ => exact absurd rfl hb

/-- … at (q, 1), the second column's entry (q, 0) … -/
theorem concat_one {α : Type} (a b c : S512x1.Idx → α) (q : Fin 512) :
    concatenate S512x3 1 [⟨S512x1, a⟩, ⟨S512x1, b⟩, ⟨S512x1, c⟩] concatenates_S512x1_S512x1_S512x1_S512x3_d1 (ix2 q (1 : Fin 3))
      = b (ix2 q (0 : Fin 1)) := by
  refine concatenate_apply_piece (1 : Fin S512x3.rank) [⟨S512x1, a⟩, ⟨S512x1, b⟩, ⟨S512x1, c⟩]
    concatenates_S512x1_S512x1_S512x1_S512x3_d1 (ix2 q (1 : Fin 3))
    1 (by show 1 < 3; omega) S512x1 b rfl rfl 1 rfl (ix2 q (0 : Fin 1)) (fun b' hb => ?_) rfl
  match b' with
  | ⟨0, _⟩ => rfl
  | ⟨1, _⟩ => exact absurd rfl hb

/-- … and at (q, 2), the third column's entry (q, 0). -/
theorem concat_two {α : Type} (a b c : S512x1.Idx → α) (q : Fin 512) :
    concatenate S512x3 1 [⟨S512x1, a⟩, ⟨S512x1, b⟩, ⟨S512x1, c⟩] concatenates_S512x1_S512x1_S512x1_S512x3_d1 (ix2 q (2 : Fin 3))
      = c (ix2 q (0 : Fin 1)) := by
  refine concatenate_apply_piece (1 : Fin S512x3.rank) [⟨S512x1, a⟩, ⟨S512x1, b⟩, ⟨S512x1, c⟩]
    concatenates_S512x1_S512x1_S512x1_S512x3_d1 (ix2 q (2 : Fin 3))
    2 (by show 2 < 3; omega) S512x1 c rfl rfl 2 rfl (ix2 q (0 : Fin 1)) (fun b' hb => ?_) rfl
  match b' with
  | ⟨0, _⟩ => rfl
  | ⟨1, _⟩ => exact absurd rfl hb

/-! ## The body's values, read at one index, as the row functions of the specification -/

/-- The label column recast to its own shape is itself. -/
theorem pay2_eq (x1 : Vec Ideal S512x1 .i32) : k0_pay2 (F := Ideal) x1 = x1 := by
  unfold k0_pay2
  exact shapeCast_self x1 shapeCasts_S512x1_S512x1

/-- Logit minus the row's maximum. -/
theorem pay3_apply (x0 : Vec Ideal S512x1000 .f32) (q : Fin 512) (k : Fin 1000) :
    k0_pay3 (F := Ideal) x0 (ix2 q k) = shifted (fun k : Fin 1000 => x0 (ix2 q k)) k := by
  unfold k0_pay3
  show x0 (ix2 q k) - broadcastTo S512x1000 _ broadcasts_S512x1_S512x1000 (ix2 q k) = _
  rw [bcast_col, cast_col, max_row]
  rfl

/-- Its exponential. -/
theorem pay4_apply (x0 : Vec Ideal S512x1000 .f32) (q : Fin 512) (k : Fin 1000) :
    k0_pay4 (F := Ideal) x0 (ix2 q k) = expd (fun k : Fin 1000 => x0 (ix2 q k)) k := by
  unfold k0_pay4
  show Ideal.exp (k0_pay3 (F := Ideal) x0 (ix2 q k)) = _
  rw [pay3_apply]
  rfl

/-- The row's sum of exponentials. -/
theorem pay5_apply (x0 : Vec Ideal S512x1000 .f32) (q : Fin 512) :
    k0_pay5 (F := Ideal) x0 (ix2 q (0 : Fin 1)) = sumExp (fun k : Fin 1000 => x0 (ix2 q k)) := by
  unfold k0_pay5
  rw [cast_col, sum_row]
  unfold sumExp
  exact Finset.sum_congr rfl fun k _ => pay4_apply x0 q k

/-- One minus the class's probability. -/
theorem pay7_apply (x0 : Vec Ideal S512x1000 .f32) (q : Fin 512) (k : Fin 1000) :
    k0_pay7 (F := Ideal) x0 (ix2 q k) = oneMinus (fun k : Fin 1000 => x0 (ix2 q k)) k := by
  unfold k0_pay7
  show one - Ideal.div (k0_pay4 (F := Ideal) x0 (ix2 q k)) (broadcastTo S512x1000 _ broadcasts_S512x1_S512x1000 (ix2 q k)) = _
  rw [bcast_col, pay4_apply, pay5_apply]
  rfl

/-- "Class k is below the label", as the one-bit word of the signed comparison. -/
theorem pay8_apply (x1 : Vec Ideal S512x1 .i32) (q : Fin 512) (k : Fin 1000) :
    k0_pay8 (F := Ideal) x1 (ix2 q k) = IntOp.cmpi .slt (col k) (x1 (ix2 q (0 : Fin 1))) := by
  unfold k0_pay8
  show IntOp.cmpi .slt (broadcastTo S512x1000 _ broadcasts_S1x1000_S512x1000 (ix2 q k))
      (broadcastTo S512x1000 _ broadcasts_S512x1_S512x1000 (ix2 q k)) = _
  rw [bcast_row, bcast_col, iota_col, pay2_eq]

/-- The log-probability of class k. -/
theorem logp_apply (x0 : Vec Ideal S512x1000 .f32) (q : Fin 512) (k : Fin 1000) :
    k0_pay3 (F := Ideal) x0 (ix2 q k)
        - (log (k0_pay5 (F := Ideal) x0) : FVec Ideal S512x1 .f32) (ix2 q (0 : Fin 1))
      = logp (fun k : Fin 1000 => x0 (ix2 q k)) k := by
  show k0_pay3 (F := Ideal) x0 (ix2 q k) - Ideal.log (k0_pay5 (F := Ideal) x0 (ix2 q (0 : Fin 1))) = _
  rw [pay3_apply, pay5_apply]
  rfl

/-- The row's cross entropy: the masked sum over the classes of the negated log-probability. -/
theorem pay6_apply (x0 : Vec Ideal S512x1000 .f32) (x1 : Vec Ideal S512x1 .i32) (q : Fin 512) :
    k0_pay6 (F := Ideal) x0 x1 (ix2 q (0 : Fin 1))
      = ceRow (fun k : Fin 1000 => x0 (ix2 q k)) (x1 (ix2 q (0 : Fin 1))) := by
  unfold k0_pay6
  rw [cast_col, sum_row]
  unfold ceRow
  refine Finset.sum_congr rfl fun k _ => ?_
  show Scalar.select (IntOp.cmpi .eq (broadcastTo S512x1000 _ broadcasts_S1x1000_S512x1000 (ix2 q k))
        (broadcastTo S512x1000 _ broadcasts_S512x1_S512x1000 (ix2 q k)))
      (Ideal.ofBits .f32 0x00000000#32
        - (k0_pay3 (F := Ideal) x0 (ix2 q k) - broadcastTo S512x1000 _ broadcasts_S512x1_S512x1000 (ix2 q k)))
      (Ideal.ofBits .f32 0x00000000#32) = _
  rw [bcast_row, bcast_col, bcast_col, iota_col, pay2_eq, logp_apply, Ideal.ofBits_zero_f32]

/-- The logarithm of one minus the probability on the classes below the label, of one elsewhere. -/
theorem pay9_apply (x0 : Vec Ideal S512x1000 .f32) (x1 : Vec Ideal S512x1 .i32) (q : Fin 512) (k : Fin 1000) :
    k0_pay9 (F := Ideal) x0 x1 (ix2 q k)
      = lowerLog (fun k : Fin 1000 => x0 (ix2 q k)) (x1 (ix2 q (0 : Fin 1))) k := by
  unfold k0_pay9
  show Ideal.log (Scalar.select (k0_pay8 (F := Ideal) x1 (ix2 q k)) (k0_pay7 (F := Ideal) x0 (ix2 q k)) one) = _
  rw [pay8_apply, pay7_apply]
  rfl

/-- The same on the classes above the label. -/
theorem pay10_apply (x0 : Vec Ideal S512x1000 .f32) (x1 : Vec Ideal S512x1 .i32) (q : Fin 512) (k : Fin 1000) :
    k0_pay10 (F := Ideal) x0 x1 (ix2 q k)
      = upperLog (fun k : Fin 1000 => x0 (ix2 q k)) (x1 (ix2 q (0 : Fin 1))) k := by
  unfold k0_pay10
  show Ideal.log (Scalar.select (IntOp.cmpi .sgt (broadcastTo S512x1000 _ broadcasts_S1x1000_S512x1000 (ix2 q k))
        (broadcastTo S512x1000 _ broadcasts_S512x1_S512x1000 (ix2 q k))) (k0_pay7 (F := Ideal) x0 (ix2 q k)) one) = _
  rw [bcast_row, bcast_col, iota_col, pay2_eq, pay7_apply]
  rfl

/-- The weight: label minus class, both converted to reals, over one thousand. -/
theorem pay11_apply (x1 : Vec Ideal S512x1 .i32) (q : Fin 512) (k : Fin 1000) :
    k0_pay11 (F := Ideal) x1 (ix2 q k) = weightK (x1 (ix2 q (0 : Fin 1))) k := by
  unfold k0_pay11
  show Ideal.div (broadcastTo S512x1000 _ broadcasts_S512x1_S512x1000 (ix2 q k)
      - broadcastTo S512x1000 _ broadcasts_S1x1000_S512x1000 (ix2 q k)) thousand = _
  rw [bcast_col, bcast_row]
  show Ideal.div ((((k0_pay2 (F := Ideal) x1 (ix2 q (0 : Fin 1))).toInt : ℝ) : EReal)
      - (((iota .tc S1x1000 32 [1] iota_S1x1000_d1_w32 (ix2 (0 : Fin 1) k)).toInt : ℝ) : EReal)) thousand = _
  rw [iota_col, pay2_eq]
  rfl

/-! ## The stored block -/

/-- Column 0 of the stored block is the first operand's column. -/
theorem pay1_zero (v25 : FVec Ideal S512x1 .f32) (v30 : IVec S512x1000 1) (v36 v39 v45 : FVec Ideal S512x1000 .f32) (q : Fin 512) :
    k0_pay1 (F := Ideal) v25 v30 v36 v39 v45 (ix2 q (0 : Fin 3)) = v25 (ix2 q (0 : Fin 1)) := by
  unfold k0_pay1
  exact concat_zero _ _ _ q

/-- Column 1 is the masked sum over the classes of the product of the last and the third operand. -/
theorem pay1_one (v25 : FVec Ideal S512x1 .f32) (v30 : IVec S512x1000 1) (v36 v39 v45 : FVec Ideal S512x1000 .f32) (q : Fin 512) :
    k0_pay1 (F := Ideal) v25 v30 v36 v39 v45 (ix2 q (1 : Fin 3))
      = ∑ k : Fin 1000, Scalar.select (v30 (ix2 q k)) (v45 (ix2 q k) * v36 (ix2 q k)) 0 := by
  unfold k0_pay1
  refine (concat_one _ _ _ q).trans ?_
  rw [cast_col, sum_row]
  refine Finset.sum_congr rfl fun k _ => ?_
  show Scalar.select (v30 (ix2 q k)) (v45 (ix2 q k) * v36 (ix2 q k)) (Ideal.ofBits .f32 0x00000000#32) = _
  rw [Ideal.ofBits_zero_f32]

/-- Column 2 is the sum over the classes of the fourth operand. -/
theorem pay1_two (v25 : FVec Ideal S512x1 .f32) (v30 : IVec S512x1000 1) (v36 v39 v45 : FVec Ideal S512x1000 .f32) (q : Fin 512) :
    k0_pay1 (F := Ideal) v25 v30 v36 v39 v45 (ix2 q (2 : Fin 3)) = ∑ k : Fin 1000, v39 (ix2 q k) := by
  unfold k0_pay1
  refine (concat_two _ _ _ q).trans ?_
  rw [cast_col, sum_row]

/-- Entry (q, c) of the block the body stores is column c's number of row q of the loaded logits block with row q's label. -/
theorem out_apply (x0 : Vec Ideal S512x1000 .f32) (x1 : Vec Ideal S512x1 .i32) (q : Fin 512) (c : Fin 3) :
    out0_2 (F := Ideal) x0 x1 (ix2 q c) = rowVal (fun k : Fin 1000 => x0 (ix2 q k)) (x1 (ix2 q (0 : Fin 1))) c := by
  have hz : (![0, 0] : Fin 2 → Nat) = fun _ => 0 := funext fun a => by fin_cases a <;> rfl
  unfold out0_2
  rw [View.canon_unit_zero hz]
  simp only [View.ld_unit_zero (S := S512x1000) hz, View.ld_unit_zero (S := S512x1) hz]
  match c with
  | ⟨0, _⟩ =>
    show k0_pay1 (F := Ideal) _ _ _ _ _ (ix2 q (0 : Fin 3)) = ceRow _ _
    rw [pay1_zero, pay6_apply]
  | ⟨1, _⟩ =>
    show k0_pay1 (F := Ideal) _ _ _ _ _ (ix2 q (1 : Fin 3)) = underRowWith weightK _ _
    rw [pay1_one]
    unfold underRowWith
    refine Finset.sum_congr rfl fun k _ => ?_
    rw [pay8_apply, pay11_apply, pay9_apply]
  | ⟨2, _⟩ =>
    show k0_pay1 (F := Ideal) _ _ _ _ _ (ix2 q (2 : Fin 3)) = overRow _ _
    rw [pay1_two]
    unfold overRow
    exact Finset.sum_congr rfl fun k _ => pay10_apply x0 x1 q k

end Cert.KernelBlock

end
-- ==== Proof.KernelArray.lean ====
/-
  The idealized kernel's output array after the run, as one function of the two argument arrays, and the scalar the
  host lines after the call make of it.

  Grid point t handles rows 512·t … 512·t + 511: its logits block is those rows of the logits, its label block those
  rows of the label column (the labels reshaped to a column before the call), and the block it writes back holds, at
  (q, c), column c's number of row 512·t + q.  The 128 blocks tile the [65536, 3] array, so the array ends holding
  `outArr`: entry (r, c) is column c's number of row r.  The host lines after the call slice each column, sum it over the rows from
  zero, divide by the batch size and combine the three means: `lossK` of the arguments.
-/
import proofs.«400552_j14242111553840_1_alg».proof.Proof.RowVal
import proofs.«400552_j14242111553840_1_alg».proof.Proof.Gen.KernelIdeal.Frame
import proofs.«400552_j14242111553840_1_alg».proof.Proof.KernelBlock
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen Cert.Spec

variable (m : (ℓ : Loc nD τ sig) → Buf (Elt Ideal) ℓ) (ρ : Dev nD → PrngReg)

/-- Entry (r, c) of the output: column c's number of row r. -/
def outArr (X : Arr) (T : Lab) : S65536x3.Idx → EReal :=
  fun i => rowVal (row X (ix1 (⟨(i 0).val, idx2_lt0 i⟩ : Fin 65536))) (T (ix1 (⟨(i 0).val, idx2_lt0 i⟩ : Fin 65536)))
    (⟨(i 1).val, idx2_lt1 i⟩ : Fin 3)

/-- The index maps over the grid: every window's block index is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem tlt (t : Fin cfg0.N) : t.val < 128 := by
  have h := t.isLt
  have hN : cfg0.N = 128 := N_0
  omega

/-- The label column the region finds: the labels reshaped to [65536, 1]. -/
theorem V_labels (c : Dev nD) :
    (V m c main_v0 : S65536x1.Idx → BitVec 32)
      = shapeCast S65536x1 (m ((c : Thread nD τ).loc main_arg1) : S65536.Idx → BitVec 32) shapeCasts_S65536_S65536x1 := by
  show StableHlo.after hostOps0 (fun b => m (c, b)) (Proc.devRef .tc main_v0) = _
  after_results
  rfl

/-- Point t's logits block at (q, k) is the logits at (512 t + q, k). -/
theorem logits_block (c : Dev nD) (t : Fin cfg0.N) (q : Fin 512) (k : Fin 1000) :
    (iblk m c 0 t : Vec Ideal S512x1000 .f32) (ix2 q k)
      = (m ((c : Thread nD τ).loc main_arg0) : S65536x1000.Idx → EReal)
          (ix2 (⟨512 * t.val + q.val, by have := tlt t; omega⟩ : Fin 65536) k) := by
  obtain ⟨e0, e1, -, -, -, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * q.val = 512 * t.val + q.val; rw [e0]; omega
  | ⟨1, _⟩ => show win0_0.index t 1 * 1000 + 1 * k.val = k.val; rw [e1]; omega

/-- Point t's label block at (q, 0) is label 512 t + q. -/
theorem labels_block (c : Dev nD) (t : Fin cfg0.N) (q : Fin 512) :
    (iblk m c 1 t : Vec Ideal S512x1 .i32) (ix2 q (0 : Fin 1))
      = (m ((c : Thread nD τ).loc main_arg1) : S65536.Idx → BitVec 32)
          (ix1 (⟨512 * t.val + q.val, by have := tlt t; omega⟩ : Fin 65536)) := by
  obtain ⟨-, -, e0, e1, -, -⟩ := idx_facts t
  unfold iblk
  rw [View.read_apply]
  show V m c main_v0 _ = m ((c : Thread nD τ).loc main_arg1) _
  rw [V_labels]
  refine shapeCast_apply _ _ _ _ ?_
  show ((⟨1, ![65536]⟩ : Shape).rowMajor _).val = ((⟨2, ![65536, 1]⟩ : Shape).rowMajor _).val
  rw [Shape.rowMajor_val_one, Shape.rowMajor_val_two]
  show 512 * t.val + q.val = (win0_1.index t 0 * 512 + 1 * q.val) * 1 + (win0_1.index t 1 * 1 + 1 * 0)
  rw [e0, e1]; omega

/-- Entry y of the block point t writes back is the output's entry at row 512 t + y₀, column y₁. -/
theorem block_entry (c : Dev nD) (t : Fin cfg0.N) (y : S512x3.Idx) :
    out0_2 (F := Ideal) (iblk m c 0 t) (iblk m c 1 t) y
      = outArr (m ((c : Thread nD τ).loc main_arg0)) (m ((c : Thread nD τ).loc main_arg1))
          (ix2 (⟨512 * t.val + (y 0).val, by have := tlt t; have := idx2_lt0 y; omega⟩ : Fin 65536)
            (⟨(y 1).val, idx2_lt1 y⟩ : Fin 3)) := by
  obtain ⟨q, cc, rfl⟩ : ∃ (q : Fin 512) (cc : Fin 3), y = ix2 q cc := ⟨y 0, y 1, eq_ix2 y⟩
  refine (Cert.KernelBlock.out_apply _ _ q cc).trans ?_
  have hrow : (fun k : Fin 1000 => (iblk m c 0 t : Vec Ideal S512x1000 .f32) (ix2 q k))
      = row (m ((c : Thread nD τ).loc main_arg0)) (ix1 (⟨512 * t.val + q.val, by have := tlt t; omega⟩ : Fin 65536)) :=
    funext fun k => logits_block m c t q k
  rw [hrow, labels_block m c t q]
  rfl

/-- WHAT POINT t WRITES BACK is block t of `outArr` of the argument arrays. -/
theorem flushed_eq (c : Dev nD) (t : Fin cfg0.N) :
    (dats m 0 c).flushed 2 t = ((cfg0.win 2).blk t).view.read (Elt Ideal)
      (outArr (m ((c : Thread nD τ).loc main_arg0)) (m ((c : Thread nD τ).loc main_arg1))) := by
  show (cfg0.win 2).cut (grid0.coords t) ((dats m 0 c).after 2 t) = _
  rw [after0_2]
  obtain ⟨-, -, -, -, e0, e1⟩ := idx_facts t
  funext j
  refine (block_entry m c t j).trans ?_
  refine congrArg (outArr _ _) (funext fun a => Fin.ext ?_)
  match a with
  | ⟨0, _⟩ => show 512 * t.val + (j 0).val = win0_2.index t 0 * 512 + 1 * (j 0).val; rw [e0]; omega
  | ⟨1, _⟩ => show (j 1).val = win0_2.index t 1 * 3 + 1 * (j 1).val; rw [e1]; omega

/-- An index of the array is in point t's block iff each coordinate is in the block's range on its axis. -/
theorem mem_blk (t : Fin cfg0.N) (i : S65536x3.Idx) :
    i ∈ ((cfg0.win 2).blk t).view.set ↔ ∀ a : Fin 2, win0_2.index t a * S512x3.size a ≤ (i a).val
      ∧ (i a).val < win0_2.index t a * S512x3.size a + S512x3.size a := by
  show i ∈ ((View.whole main_v1).slice (win0_2.rect t)).set ↔ _
  rw [View.set_slice_whole, Rect.mem_set_unit]
  exact Iff.rfl

/-- Row r lies in the block of point r / 512. -/
theorem cover (i : S65536x3.Idx) :
    ∃ t : Fin cfg0.N, (cfg0.win 2).flush t = true ∧ i ∈ ((cfg0.win 2).blk t).view.set := by
  have hi0 : (i 0).val < 65536 := idx2_lt0 i
  have hi1 : (i 1).val < 3 := idx2_lt1 i
  have hN : cfg0.N = 128 := N_0
  let t : Fin cfg0.N := ⟨(i 0).val / 512, by omega⟩
  obtain ⟨-, -, -, -, e0, e1⟩ := idx_facts t
  refine ⟨t, flush0_2 t, ?_⟩
  rw [mem_blk]
  intro a
  match a with
  | ⟨0, _⟩ =>
    show win0_2.index t 0 * 512 ≤ (i 0).val ∧ (i 0).val < win0_2.index t 0 * 512 + 512
    rw [e0]; show (i 0).val / 512 * 512 ≤ (i 0).val ∧ (i 0).val < (i 0).val / 512 * 512 + 512; omega
  | ⟨1, _⟩ =>
    show win0_2.index t 1 * 3 ≤ (i 1).val ∧ (i 1).val < win0_2.index t 1 * 3 + 3
    rw [e1]; omega

/-- THE ARRAY after the run. -/
theorem final (c : Dev nD) :
    (dats m 0 c).arrAt 2 cfg0.N = outArr (m ((c : Thread nD τ).loc main_arg0)) (m ((c : Thread nD τ).loc main_arg1)) :=
  (dats m 0 c).arrAt_eq_of_cover 2 _ (fun t _ => flushed_eq m c t) cover

/-! ## The host lines after the region -/

/-- A row index of the batch is below 65536, stated at the literal. -/
theorem rlt (i : S65536.Idx) : (i 0).val < 65536 := (i 0).isLt

/-- A column of the output, summed over the rows as the host sums it: slice the column, reshape it to a vector,
    reduce from zero. -/
theorem col_sum (A : S65536x3.Idx → EReal) (o : Nat) (ho : o < 3) (hs : S65536x3.Slices ![0, o] S65536x1) :
    Host.reduceAdd (F := Ideal) (shapeCast S65536 (extractStridedSlice S65536x1 ![0, o] A hs) shapeCasts_S65536x1_S65536)
        (constant S_ .f32 0x00000000#32) reducesTo_S65536_S_d0 h_S_
      = fun _ => ∑ i : S65536.Idx, A (ix2 (⟨(i 0).val, rlt i⟩ : Fin 65536) (⟨o, ho⟩ : Fin 3)) := by
  funext z
  generalize hy : shapeCast S65536 (extractStridedSlice S65536x1 ![0, o] A hs) shapeCasts_S65536x1_S65536 = y0
  simp only [Host.reduceAdd, Ideal.hostReduceAdd_def]
  refine (Ideal.hostReduceAdd_total reducesTo_S65536_S_d0 (fun b => b.elim0) y0 _ z).trans ?_
  show Ideal.ofBits .f32 0x00000000#32 + _ = _
  rw [Ideal.ofBits_zero_f32, zero_add]
  refine Finset.sum_congr rfl fun i _ => ?_
  subst hy
  refine (shapeCast_apply _ _ i (ix2 (⟨(i 0).val, rlt i⟩ : Fin 65536) (0 : Fin 1)) ?_).trans ?_
  · show ((⟨2, ![65536, 1]⟩ : Shape).rowMajor _).val = ((⟨1, ![65536]⟩ : Shape).rowMajor _).val
    rw [Shape.rowMajor_val_one, Shape.rowMajor_val_two]
    show (i 0).val * 1 + 0 = (i 0).val
    omega
  · refine extractStridedSlice_apply _ _ _ _ (ix2 (⟨(i 0).val, rlt i⟩ : Fin 65536) (⟨o, ho⟩ : Fin 3)) fun a => ?_
    match a with
    | ⟨0, _⟩ => show (i 0).val = 0 + (i 0).val; omega
    | ⟨1, _⟩ => show o = o + 0; omega

/-- Column j of `outArr` summed over the rows is the row number of column j summed over the rows. -/
theorem col_total (X : Arr) (T : Lab) (j : Fin 3) :
    (∑ i : S65536.Idx, outArr X T (ix2 (⟨(i 0).val, rlt i⟩ : Fin 65536) j)) = total (fun x t => rowVal x t j) X T := by
  unfold total
  refine Finset.sum_congr rfl fun i _ => ?_
  have hi : ix1 (⟨(i 0).val, rlt i⟩ : Fin 65536) = i := funext fun a => by match a with | ⟨0, _⟩ => rfl
  show rowVal (row X (ix1 (⟨(i 0).val, _⟩ : Fin 65536))) (T (ix1 (⟨(i 0).val, _⟩ : Fin 65536))) (⟨j.val, _⟩ : Fin 3) = _
  rw [hi]

/-- The host lines after the region, over any output array A: the three columns' means combined. -/
theorem tail_formula (A : S65536x3.Idx → EReal) :
    subf (Host.divf (Host.reduceAdd (F := Ideal) (shapeCast S65536 (extractStridedSlice S65536x1 ![0, 0] A slices_S65536x3_S65536x1_0_0) shapeCasts_S65536x1_S65536)
          (constant S_ .f32 0x00000000#32) reducesTo_S65536_S_d0 h_S_) (constant S_ .f32 0x47800000#32))
      (mulf (constant S_ .f32 0x3F000000#32)
        (addf
          (Host.divf (Host.reduceAdd (F := Ideal) (shapeCast S65536 (extractStridedSlice S65536x1 ![0, 2] A slices_S65536x3_S65536x1_0_2) shapeCasts_S65536x1_S65536)
            (constant S_ .f32 0x00000000#32) reducesTo_S65536_S_d0 h_S_) (constant S_ .f32 0x47800000#32))
          (Host.divf (Host.reduceAdd (F := Ideal) (shapeCast S65536 (extractStridedSlice S65536x1 ![0, 1] A slices_S65536x3_S65536x1_0_1) shapeCasts_S65536x1_S65536)
            (constant S_ .f32 0x00000000#32) reducesTo_S65536_S_d0 h_S_) (constant S_ .f32 0x47800000#32))))
      = fun _ => combine
          (Ideal.div (∑ i : S65536.Idx, A (ix2 (⟨(i 0).val, rlt i⟩ : Fin 65536) (0 : Fin 3))) batch)
          (Ideal.div (∑ i : S65536.Idx, A (ix2 (⟨(i 0).val, rlt i⟩ : Fin 65536) (2 : Fin 3))) batch)
          (Ideal.div (∑ i : S65536.Idx, A (ix2 (⟨(i 0).val, rlt i⟩ : Fin 65536) (1 : Fin 3))) batch) := by
  rw [col_sum A 0 (by decide) slices_S65536x3_S65536x1_0_0, col_sum A 2 (by decide) slices_S65536x3_S65536x1_0_2,
    col_sum A 1 (by decide) slices_S65536x3_S65536x1_0_1]
  rfl

/-- THE RESULT the kernel's program leaves: `lossK` of the argument arrays. -/
theorem tail_eq (c : Dev nD) :
    Pipeline.afterTail₀ cfgs (dats m) 0 (V0 m) [hostOps1] c main_v16
      = fun _ => lossK (m ((c : Thread nD τ).loc main_arg0)) (m ((c : Thread nD τ).loc main_arg1)) := by
  unfold Pipeline.afterTail₀
  show StableHlo.after hostOps1 _ (Proc.devRef .tc main_v16) = _
  after_results
  refine (tail_formula _).trans ?_
  rw [show Pipeline.withArrays (cfgs 0).spec c (V0 m c) (fun w => (dats m 0 c).arrAt w (cfgs 0).N) (Proc.tc.devRef main_v1)
        = outArr (m ((c : Thread nD τ).loc main_arg0)) (m ((c : Thread nD τ).loc main_arg1)) from
      (Pipeline.withArrays_arr spec0 launch0.win.arr_inj c (V0 m c) _ 2).trans (final m c)]
  rw [col_total, col_total, col_total]
  rfl

end Cert.KernelArray

end
-- ==== Proof.KernelRun.lean ====
/-
  The idealized kernel's run, read: its result buffer ends at `lossK` of the two argument arrays, which end unchanged.
  The result is what the host lines after the call make of the output array; the logits are a staged input of the
  call, read back through the call's proof data; the labels bypass the call and no later host line writes them.
-/
import proofs.«400552_j14242111553840_1_alg».proof.Proof.KernelArray

noncomputable section

open Idealize.ShloMosaic Idealize.ShloMosaic.TcCoe Idealize.SL.Sem
open Idealize.ShloMosaic.Pipeline (Dat)

namespace Cert.KernelRun

open Cert.KernelIdeal Cert.KernelIdeal.Gen Cert.Spec

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v16)
          = (fun _ => lossK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v16 (Pipeline.mem_restRefs_of main_v16 (by decide) (by decide))).trans (Cert.KernelArray.tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelRun

end
-- ==== Proof.LibTakeFill.lean ====
/-
  A row gather with a fill for out-of-range rows, read where every row index is in range.

  `take` with the fill mode prints as: the index column `I` (the row ids, a negative id moved up by the row count `N`), a mask
  "0 ≤ I ≤ N − 1" reduced by `and` along the column's unit axis, and a select between the gathered rows and the fill.
  Where every id `s e` satisfies 0 ≤ s e < N (signed), no id is moved, every mask bit is 1, and the select returns the
  gathered rows.  The row count `N` and the last row `hi` are any two words with `N = hi + 1` as signed integers.
  Also here: a reshape of a vector to a column or to a row is the `broadcast_in_dim` to that shape.
-/
import Idealize.ShloMosaic.PureOps
import Idealize.ShloMosaic.Lib.ReduceAll
import Idealize.ShloMosaic.Lib.Pipeline.Value
import Idealize.ShloMosaic.Lib.ValueIdx

namespace Cert.LibTakeFill

open Idealize.ShloMosaic

abbrev S0 : Shape := ⟨0, ![]⟩
abbrev S1 : Shape := ⟨1, ![1]⟩
abbrev S11 : Shape := ⟨2, ![1, 1]⟩

variable {E C : Nat}

/-- The index column a `take` builds from the ids `s`: an id below zero is moved up by `N`, then the ids stand as a column. -/
def idxCol (N : BitVec 32) (s : IVec ⟨1, ![E]⟩ 32) (hb0 : S0.BroadcastsInDim ⟨1, ![E]⟩ (![] : Fin 0 → Fin 1))
    (hcol : (⟨1, ![E]⟩ : Shape).BroadcastsInDim ⟨2, ![E, 1]⟩ ![0]) : IVec ⟨2, ![E, 1]⟩ 32 :=
  broadcastInDim ⟨2, ![E, 1]⟩ ![0] hcol
    (select (cmpi .slt s (broadcastInDim ⟨1, ![E]⟩ ![] hb0 (constantI S0 32 0#32)))
      (addi s (broadcastInDim ⟨1, ![E]⟩ ![] hb0 (constantI S0 32 N))) s)

/-- The mask a `take` builds over that column: "0 ≤ I and I ≤ hi", reduced by `and` along the unit axis. -/
def inRangeMask (N hi : BitVec 32) (s : IVec ⟨1, ![E]⟩ 32) (hb0 : S0.BroadcastsInDim ⟨1, ![E]⟩ (![] : Fin 0 → Fin 1))
    (hcol : (⟨1, ![E]⟩ : Shape).BroadcastsInDim ⟨2, ![E, 1]⟩ ![0])
    (hb01 : S0.BroadcastsInDim ⟨2, ![E, 1]⟩ (![] : Fin 0 → Fin 2))
    (h1 : S1.BroadcastsInDim S11 ![1]) (h11 : S11.BroadcastsInDim ⟨2, ![E, 1]⟩ ![0, 1])
    (hred : (⟨2, ![E, 1]⟩ : Shape).ReducesTo [1] ⟨1, ![E]⟩) (h0 : 0 < S0.numel) : IVec ⟨1, ![E]⟩ 1 :=
  Host.reduce IntOp.andi
    (andi (cmpi .sge (idxCol N s hb0 hcol) (broadcastInDim ⟨2, ![E, 1]⟩ ![] hb01 (constantI S0 32 0#32)))
          (cmpi .sle (idxCol N s hb0 hcol) (broadcastInDim ⟨2, ![E, 1]⟩ ![0, 1] h11 (broadcastInDim S11 ![1] h1 (constantI S1 32 hi)))))
    (constantI S0 1 1#1) hred h0

/-- A left fold by `and` that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A word in [0, N) signed is not below zero and is at most `hi = N − 1`. -/
theorem word_in_range (N hi : BitVec 32) (hN : N.toInt = hi.toInt + 1) (w : BitVec 32)
    (h0 : IntOp.cmpi .sge w 0#32 = 1#1) (h1 : IntOp.cmpi .slt w N = 1#1) :
    IntOp.cmpi .slt w 0#32 = 0#1 ∧ IntOp.cmpi .sle w hi = 1#1 := by
  rw [IntOp.cmpi_sge] at h0
  rw [IntOp.cmpi_slt] at h1
  have z0 : (0#32 : BitVec 32).toInt = 0 := by decide
  rw [z0] at h0
  refine ⟨ValueIdx.eq_zero_of_ne_one fun h => ?_, ?_⟩
  · rw [IntOp.cmpi_slt, z0] at h
    omega
  · rw [IntOp.cmpi_sle]
    omega

/-- The row of the ids that the column entry `i` reads. -/
abbrev rowOf (i : (⟨2, ![E, 1]⟩ : Shape).Idx) : (⟨1, ![E]⟩ : Shape).Idx := ValueIdx.ix1 ⟨(i 0).val, ValueIdx.idx2_lt0 i⟩

/-- Where the id is in range it is not moved: the column entry is the id itself. -/
theorem idxCol_apply (N hi : BitVec 32) (hN : N.toInt = hi.toInt + 1) (s : IVec ⟨1, ![E]⟩ 32)
    (hs : ∀ e, IntOp.cmpi .sge (s e) 0#32 = 1#1 ∧ IntOp.cmpi .slt (s e) N = 1#1)
    (hb0 hcol) (i : (⟨2, ![E, 1]⟩ : Shape).Idx) :
    idxCol (E := E) N s hb0 hcol i = s (rowOf i) := by
  unfold idxCol
  refine (broadcastInDim_apply _ hcol _ i (rowOf i) (fun a => match a with
    | ⟨0, _⟩ => by
      have h0 : (i 0).val < E := ValueIdx.idx2_lt0 i
      show (i 0).val = if E = 1 then 0 else (i 0).val
      split <;> omega)).trans ?_
  show Scalar.select (IntOp.cmpi .slt (s (rowOf i)) 0#32) (IntOp.addi (s (rowOf i)) N) (s (rowOf i)) = s (rowOf i)
  rw [(word_in_range N hi hN _ (hs (rowOf i)).1 (hs (rowOf i)).2).1, ValueIdx.select_zero]

/-- Where every id is in [0, N) signed, every bit of the mask "0 ≤ I ≤ hi" is 1. -/
theorem inRangeMask_eq_one (N hi : BitVec 32) (hN : N.toInt = hi.toInt + 1) (s : IVec ⟨1, ![E]⟩ 32)
    (hs : ∀ e, IntOp.cmpi .sge (s e) 0#32 = 1#1 ∧ IntOp.cmpi .slt (s e) N = 1#1)
    (hb0 hcol hb01 h1 h11 hred h0) (e : (⟨1, ![E]⟩ : Shape).Idx) :
    inRangeMask (E := E) N hi s hb0 hcol hb01 h1 h11 hred h0 e = 1#1 := by
  unfold inRangeMask
  rw [Host.reduce_eq_foldl]
  refine foldl_andi_one _ (fun i => ?_) _
  show IntOp.andi (IntOp.cmpi .sge (idxCol (E := E) N s hb0 hcol i) 0#32)
      (IntOp.cmpi .sle (idxCol (E := E) N s hb0 hcol i) hi) = 1#1
  rw [idxCol_apply N hi hN s hs hb0 hcol i, (hs (rowOf i)).1, (word_in_range N hi hN _ (hs (rowOf i)).1 (hs (rowOf i)).2).2]
  rfl

/-- THE READ: with every id in [0, N) the select between the gathered rows `G` and the fill `Z` under the
    row mask is `G`. -/
theorem select_mask_eq {α : Type} (N hi : BitVec 32) (hN : N.toInt = hi.toInt + 1) (s : IVec ⟨1, ![E]⟩ 32)
    (hs : ∀ e, IntOp.cmpi .sge (s e) 0#32 = 1#1 ∧ IntOp.cmpi .slt (s e) N = 1#1)
    (hb0 hcol hb01 h1 h11 hred h0)
    (hm : (⟨1, ![E]⟩ : Shape).BroadcastsInDim ⟨2, ![E, C]⟩ ![0])
    (G Z : (⟨2, ![E, C]⟩ : Shape).Idx → α) :
    select (broadcastInDim ⟨2, ![E, C]⟩ ![0] hm (inRangeMask (E := E) N hi s hb0 hcol hb01 h1 h11 hred h0)) G Z = G := by
  funext i
  have hi' : (i 0).val < E := ValueIdx.idx2_lt0 i
  rw [ValueIdx.select_apply,
    broadcastInDim_apply ![0] hm _ i (ValueIdx.ix1 ⟨(i 0).val, hi'⟩) (fun a => match a with
      | ⟨0, _⟩ => by
        show (i 0).val = if E = 1 then 0 else (i 0).val
        split <;> omega),
    inRangeMask_eq_one N hi hN s hs, ValueIdx.select_one]

/-- A reshape of a vector to a column is its `broadcast_in_dim` along axis 0. -/
theorem shapeCast_col_eq_bcast {α : Type} {n : Nat} (x : (⟨1, ![n]⟩ : Shape).Idx → α)
    (hc : (⟨1, ![n]⟩ : Shape).ShapeCasts ⟨2, ![n, 1]⟩) (hb : (⟨1, ![n]⟩ : Shape).BroadcastsInDim ⟨2, ![n, 1]⟩ ![0]) :
    shapeCast ⟨2, ![n, 1]⟩ x hc = broadcastInDim ⟨2, ![n, 1]⟩ ![0] hb x := by
  funext j
  have h0 : (j 0).val < n := ValueIdx.idx2_lt0 j
  have h1 : (j 1).val < 1 := ValueIdx.idx2_lt1 j
  -- the column entry (r, 0) stands at row-major position r * 1 + 0 = r, the position of entry r of the vector
  rw [shapeCast_apply x hc j (ValueIdx.ix1 ⟨(j 0).val, h0⟩) (by
    rw [Shape.rowMajor_val_one, Shape.rowMajor_val_two]
    show (j 0).val = (j 0).val * 1 + (j 1).val
    omega)]
  exact (broadcastInDim_apply ![0] hb x j (ValueIdx.ix1 ⟨(j 0).val, h0⟩) (fun a => match a with
    | ⟨0, _⟩ => by
      show (j 0).val = if n = 1 then 0 else (j 0).val
      split <;> omega)).symm

/-- A reshape of a vector to a row is its `broadcast_in_dim` along axis 1. -/
theorem shapeCast_row_eq_bcast {α : Type} {n : Nat} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  have h0 : (j 0).val < 1 := ValueIdx.idx2_lt0 j
  have h1 : (j 1).val < n := ValueIdx.idx2_lt1 j
  -- the row entry (0, c) stands at row-major position 0 * n + c = c, the position of entry c of the vector
  rw [shapeCast_apply x hc j (ValueIdx.ix1 ⟨(j 1).val, h1⟩) (by
    rw [Shape.rowMajor_val_one, Shape.rowMajor_val_two]
    show (j 1).val = (j 0).val * n + (j 1).val
    have : (j 0).val = 0 := by omega
    rw [this]
    omega)]
  exact (broadcastInDim_apply ![1] hb x j (ValueIdx.ix1 ⟨(j 1).val, h1⟩) (fun a => match a with
    | ⟨0, _⟩ => by
      show (j 1).val = if n = 1 then 0 else (j 1).val
      split <;> omega)).symm

end Cert.LibTakeFill
-- ==== Proof.RefOps.lean ====
/-
  Three operations of the reference program read at an index: the row maximum (a fold of max over one axis), the
  gather that picks the label's entry in each row, and the in-range mask of the gather's index column.
-/
import proofs.«400552_j14242111553840_1_alg».proof.Proof.Spec
import proofs.«400552_j14242111553840_1_alg».proof.Proof.LibTakeFill
import proofs.«400552_j14242111553840_1_alg».proof.Proof.Gen.ReferenceIdeal
import Idealize.ShloMosaic.PureOps.Ideal.Laws
import Idealize.ShloMosaic.PureOps.Reduce
import Idealize.ShloMosaic.Lib.Pipeline.Value
import Idealize.ShloMosaic.Lib.ValueIdx
import Idealize.ShloMosaic.Lib.ReduceAll
import Idealize.ShloMosaic.Lib.Affine

noncomputable section

open scoped BigOperators

namespace Cert.RefOps

open Idealize.ShloMosaic Idealize.ShloMosaic.ValueIdx Cert.ReferenceIdeal Cert.Spec

/-! ## The row maximum -/

/-- The one-axis reduce of max from −∞ along the classes is the row's maximum: the indices that drop to row i are
    (i, k) for the classes k, and a fold of a commutative associative operation over them is the fold over k. -/
theorem hostRowMax (x : S65536x1000.Idx → EReal) (h' : S65536x1000.ReducesTo [1] S65536) (hu : 0 < S_.numel)
    (i : S65536.Idx) :
    Host.reduce (FloatOps.maximumf (F := Ideal) (φ := .f32)) x (constant (F := Ideal) S_ .f32 0xFF800000#32) h' hu i
      = rowMax (row x i) := by
  have h : S65536x1000.Reduces [1] S65536 := by decide
  rw [Host.reduce_eq_fold_single (a := (1 : Fin 2)) _ x _ h' h hu i]
  have hx : x ∘ h.lift i = row x i := by
    funext k
    refine congrArg x (funext fun a => Fin.ext ?_)
    match a with
    | ⟨0, _⟩ => rfl
    | ⟨1, _⟩ => rfl
  rw [hx]
  rfl

/-- The reference takes the maximum of −∞ and the row maximum once more; the fold already starts at −∞. -/
theorem max_ninf_rowMax (x : Fin 1000 → EReal) : max ninf (rowMax x) = rowMax x :=
  max_eq_right (Finset.le_fold_max ninf |>.mpr (Or.inl le_rfl))

/-! ## The gather -/

/-- The gather of one entry per row: result (r, 0) is the operand at row r (the batching axis) and at the class the
    start index at (r, 0, 0) names, read signed and clamped into [0, 999] (the collapsed axis). -/
theorem gather_apply {α : Type} (x : S65536x1000.Idx → α) (idx : IVec S65536x1x1 32) (y : S65536x1.Idx) :
    Host.gather gather_S65536x1000_S65536x1x1_S65536x1_n_1_0_0_1_2_11 x idx y
      = x (ix2 (⟨(y 0).val, idx2_lt0 y⟩ : Fin 65536)
            (⟨min (idx (ix3 (⟨(y 0).val, idx2_lt0 y⟩ : Fin 65536) (0 : Fin 1) (0 : Fin 1))).toInt.toNat 999,
              by omega⟩ : Fin 1000)) := by
  unfold Host.gather
  congr 1
  funext a
  refine Fin.ext ?_
  match a with
  | ⟨0, _⟩ =>
    show gather_S65536x1000_S65536x1x1_S65536x1_n_1_0_0_1_2_11.start y idx 0
        + gather_S65536x1000_S65536x1x1_S65536x1_n_1_0_0_1_2_11.batchCoord y 0
        + gather_S65536x1000_S65536x1x1_S65536x1_n_1_0_0_1_2_11.offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S65536x1000_S65536x1x1_S65536x1_n_1_0_0_1_2_11.start y idx 1
        + gather_S65536x1000_S65536x1x1_S65536x1_n_1_0_0_1_2_11.batchCoord y 1
        + gather_S65536x1000_S65536x1x1_S65536x1_n_1_0_0_1_2_11.offCoord y 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S65536x1000_S65536x1x1_S65536x1_n_1_0_0_1_2_11.startIndexMap from
      List.mem_singleton.mpr rfl)]
    have hsi : gather_S65536x1000_S65536x1x1_S65536x1_n_1_0_0_1_2_11.siIdx y
        ⟨List.idxOf (1 : Fin 2) gather_S65536x1000_S65536x1x1_S65536x1_n_1_0_0_1_2_11.startIndexMap,
          List.idxOf_lt_length_iff.2 (List.mem_singleton.mpr rfl)⟩
        = ix3 (⟨(y 0).val, idx2_lt0 y⟩ : Fin 65536) (0 : Fin 1) (0 : Fin 1) := by
      funext b; refine Fin.ext ?_
      match b with
      | ⟨0, _⟩ => rfl
      | ⟨1, _⟩ =>
        have h1 : (y 1).val < 1 := idx2_lt1 y
        show (y 1).val = 0
        omega
      | ⟨2, _⟩ => rfl
    rw [hsi]
    rfl

/-! ## The in-range mask -/

/-- A label in [0, 1000) is not below zero, so "add 1000 where negative" leaves it. -/
theorem label_not_moved (w : BitVec 32) (h0 : 0 ≤ w.toInt) (h1 : w.toInt < 1000) :
    Scalar.select (IntOp.cmpi .slt w 0#32) (IntOp.addi w 1000#32) w = w := by
  have z0 : (0#32 : BitVec 32).toInt = 0 := by decide
  have zN : (1000#32 : BitVec 32).toInt = 1000 := by decide
  have hw := Cert.LibTakeFill.word_in_range 1000#32 999#32 (by decide) w
    (IntOp.cmpi_sge.mpr (by rw [z0]; exact h0)) (IntOp.cmpi_slt.mpr (by rw [zN]; exact h1))
  rw [hw.1, select_zero]

/-- A label in [0, 1000) passes the test "0 ≤ · and · ≤ 999". -/
theorem label_in_range (w : BitVec 32) (h0 : 0 ≤ w.toInt) (h1 : w.toInt < 1000) :
    IntOp.andi (IntOp.cmpi .sge w 0#32) (IntOp.cmpi .sle w 999#32) = 1#1 := by
  have z0 : (0#32 : BitVec 32).toInt = 0 := by decide
  have zN : (1000#32 : BitVec 32).toInt = 1000 := by decide
  have hge : IntOp.cmpi .sge w 0#32 = 1#1 := IntOp.cmpi_sge.mpr (by rw [z0]; exact h0)
  have hw := Cert.LibTakeFill.word_in_range 1000#32 999#32 (by decide) w hge
    (IntOp.cmpi_slt.mpr (by rw [zN]; exact h1))
  rw [hge, hw.2]
  rfl

/-- The and-reduce along the unit axis of a mask that is 1 everywhere, from 1, is 1 everywhere. -/
theorem andReduce_one (m : IVec S65536x1x1 1) (init : S_.Idx → BitVec 1) (h' : S65536x1x1.ReducesTo [2] S65536x1)
    (hu : 0 < S_.numel) (hm : ∀ j, m j = 1#1) (hinit : init (Shape.Idx.first hu) = 1#1) (e : S65536x1.Idx) :
    Host.reduce IntOp.andi m init h' hu e = 1#1 := by
  rw [Host.reduce_eq_foldl, hinit]
  exact Cert.LibTakeFill.foldl_andi_one _ hm _

end Cert.RefOps

end
-- ==== Proof.RefValue.lean ====
/-
  The reference program's result is the specification's loss in the reference's spelling.

  Row by row: the log-softmax entry is s_k − log Z with s_k = x_k − max x and Z = Σ exp s_k; the softmax entry is
  exp s_k / Z; the entry the reference picks in a row is the log-probability at the row's label (every label lies in
  [0, 1000), so the label is not moved, the in-range mask is all ones and the clamp is the identity on it); the two
  masked logarithms are log(1 − p_k) below / above the label and log 1 elsewhere; the weight is the 32-bit difference
  label − class, converted, over 1000.  The three totals are the sums of these per-row numbers over the 65536 rows
  (the picked column [65536, 1] is re-indexed by its rows), each divided by 65536, and the result is
  −picked − ½ · (over + under).
-/
import proofs.«400552_j14242111553840_1_alg».proof.Proof.Spec
import proofs.«400552_j14242111553840_1_alg».proof.Proof.RefOps
import proofs.«400552_j14242111553840_1_alg».proof.Proof.ReadP
import Idealize.ShloMosaic.PureOps.Ideal.Laws
import Idealize.ShloMosaic.Lib.Pipeline.Value
import Idealize.ShloMosaic.Lib.ValueIdx
import Mathlib.Algebra.BigOperators.Group.Finset.Basic
import Mathlib.Logic.Equiv.Defs

noncomputable section

open scoped BigOperators

namespace Cert.RefValue

open Idealize.ShloMosaic Idealize.ShloMosaic.ValueIdx Cert.ReferenceIdeal Cert.Spec Cert.RefOps
open Cert.ReferenceIdeal.ReadP

/-! ## Indices -/

/-- The logits: an extended real per (row, class). -/
abbrev ArrR : Type := (⟨S65536x1000, .f32⟩ : BufTy).Contents (Elt Ideal)
/-- The labels: a 32-bit word per row. -/
abbrev LabR : Type := (⟨S65536, .i32⟩ : BufTy).Contents (Elt Ideal)

/-- The entry of row i at class k. -/
abbrev cell (i : S65536.Idx) (k : Fin 1000) : S65536x1000.Idx := ix2 (⟨(i 0).val, (i 0).isLt⟩ : Fin 65536) k

/-- Two rank-1 indices with the same coordinate are equal. -/
theorem idx1_eq {n : Nat} (p q : (⟨1, ![n]⟩ : Shape).Idx) (h : (p 0).val = (q 0).val) : p = q := by
  funext a
  match a with
  | ⟨0, _⟩ => exact Fin.ext h

/-- Two rank-2 indices with the same coordinates are equal. -/
theorem idx2_eq {n m : Nat} (p q : (⟨2, ![n, m]⟩ : Shape).Idx) (h0 : (p 0).val = (q 0).val)
    (h1 : (p 1).val = (q 1).val) : p = q := by
  funext a
  match a with
  | ⟨0, _⟩ => exact Fin.ext h0
  | ⟨1, _⟩ => exact Fin.ext h1

/-! ## One row of the log-softmax -/

/-- The log-softmax's row maximum. -/
theorem call0_v2_eq (X : ArrR) (i : S65536.Idx) : val_main_call0_v2 (F := Ideal) X i = rowMax (row X i) := by
  rw [val_main_call0_v2_apply, val_main_call0_v1_apply, val_main_call0_cst_0_apply]
  unfold val_main_call0_v0
  rw [show val_main_call0_cst (F := Ideal) = constant (F := Ideal) S_ .f32 0xFF800000#32 from rfl, hostRowMax]
  exact max_ninf_rowMax _

/-- The shifted logit. -/
theorem call0_v5_eq (X : ArrR) (i : S65536.Idx) (k : Fin 1000) :
    val_main_call0_v5 (F := Ideal) X (cell i k) = shifted (row X i) k := by
  rw [val_main_call0_v5_apply, val_main_call0_v4_apply, val_main_call0_v3_apply,
    idx1_eq (idx_main_call0_v3 (idx_main_call0_v4 (cell i k))) i rfl, call0_v2_eq]
  rfl

/-- The row's sum of exponentials. -/
theorem call0_v7_eq (X : ArrR) (i : S65536.Idx) : val_main_call0_v7 (F := Ideal) X i = sumExp (row X i) := by
  rw [val_main_call0_v7_apply, val_main_call0_cst_1_apply, Ideal.ofBits_def, Ideal.ofBits_zero_f32, zero_add]
  refine Finset.sum_congr rfl fun k _ => ?_
  rw [val_main_call0_v6_apply, idx2_eq (idx_main_call0_v7 i k) (cell i k) rfl rfl, call0_v5_eq]
  rfl

/-- The log-probability. -/
theorem v3_eq (X : ArrR) (i : S65536.Idx) (k : Fin 1000) :
    val_main_v3 (F := Ideal) X (cell i k) = logp (row X i) k := by
  rw [val_main_v3_apply, call0_v5_eq, val_main_call0_v10_apply, val_main_call0_v9_apply, val_main_call0_v8_apply,
    idx1_eq (idx_main_call0_v8 (idx_main_call0_v10 (cell i k))) i rfl, call0_v7_eq]
  rfl

/-! ## One row of the softmax -/

/-- The softmax's row maximum. -/
theorem v10_eq (X : ArrR) (i : S65536.Idx) : val_main_v10 (F := Ideal) X i = rowMax (row X i) := by
  rw [val_main_v10_apply, val_main_v9_apply, val_main_cst_2_apply]
  unfold val_main_v8
  rw [show val_main_cst_1 (F := Ideal) = constant (F := Ideal) S_ .f32 0xFF800000#32 from rfl, hostRowMax]
  exact max_ninf_rowMax _

/-- The exponential of the shifted logit. -/
theorem v14_eq (X : ArrR) (i : S65536.Idx) (k : Fin 1000) :
    val_main_v14 (F := Ideal) X (cell i k) = expd (row X i) k := by
  rw [val_main_v14_apply, val_main_v13_apply, val_main_v12_apply, val_main_v11_apply,
    idx1_eq (idx_main_v11 (idx_main_v12 (cell i k))) i rfl, v10_eq]
  rfl

/-- The row's sum of exponentials, as the softmax forms it. -/
theorem v15_eq (X : ArrR) (i : S65536.Idx) : val_main_v15 (F := Ideal) X i = sumExp (row X i) := by
  rw [val_main_v15_apply, val_main_cst_3_apply, Ideal.ofBits_def, Ideal.ofBits_zero_f32, zero_add]
  refine Finset.sum_congr rfl fun k _ => ?_
  rw [idx2_eq (idx_main_v15 i k) (cell i k) rfl rfl, v14_eq]

/-- The probability. -/
theorem v18_eq (X : ArrR) (i : S65536.Idx) (k : Fin 1000) :
    val_main_v18 (F := Ideal) X (cell i k) = prob (row X i) k := by
  rw [val_main_v18_apply, v14_eq, val_main_v17_apply, val_main_v16_apply,
    idx1_eq (idx_main_v16 (idx_main_v17 (cell i k))) i rfl, v15_eq]
  rfl

/-! ## The label column and the class row -/

/-- The label column at a row is the row's label. -/
theorem v0_at (T : LabR) (j : S65536x1.Idx) (i : S65536.Idx) (h : (j 0).val = (i 0).val) :
    val_main_v0 (F := Ideal) T j = T i := by
  rw [val_main_v0_apply, idx1_eq (idx_main_v0 j) i h]

/-- The class row at a class is the class as a word. -/
theorem v2_at (j : S1x1000.Idx) : val_main_v2 (F := Ideal) j = BitVec.ofNat 32 (j 1).val := by
  rw [val_main_v2_apply, val_main_v1_apply]

/-- "class below label". -/
theorem v21_eq (T : LabR) (i : S65536.Idx) (k : Fin 1000) :
    val_main_v21 (F := Ideal) T (cell i k) = IntOp.cmpi .slt (col k) (T i) := by
  rw [val_main_v21_apply, val_main_v19_apply, v2_at, val_main_v20_apply, v0_at T _ i rfl]

/-- "class above label". -/
theorem v24_eq (T : LabR) (i : S65536.Idx) (k : Fin 1000) :
    val_main_v24 (F := Ideal) T (cell i k) = IntOp.cmpi .sgt (col k) (T i) := by
  rw [val_main_v24_apply, val_main_v22_apply, v2_at, val_main_v23_apply, v0_at T _ i rfl]

/-! ## The masked logarithms and the weight -/

/-- log(1 − p) below the label, log 1 elsewhere. -/
theorem v28_eq (X : ArrR) (T : LabR) (i : S65536.Idx) (k : Fin 1000) :
    val_main_v28 (F := Ideal) X T (cell i k) = lowerLog (row X i) (T i) k := by
  rw [val_main_v28_apply, val_main_v27_apply, v21_eq, val_main_v26_apply, val_main_v25_apply, val_main_cst_4_apply,
    v18_eq, val_main_call2_v1_apply, val_main_call2_v0_apply, val_main_cst_5_apply]
  rfl

/-- log(1 − p) above the label, log 1 elsewhere. -/
theorem v32_eq (X : ArrR) (T : LabR) (i : S65536.Idx) (k : Fin 1000) :
    val_main_v32 (F := Ideal) X T (cell i k) = upperLog (row X i) (T i) k := by
  rw [val_main_v32_apply, val_main_v31_apply, v24_eq, val_main_v30_apply, val_main_v29_apply, val_main_cst_6_apply,
    v18_eq, val_main_call3_v1_apply, val_main_call3_v0_apply, val_main_cst_7_apply]
  rfl

/-- The weight (label − class)/1000, the difference taken on the words. -/
theorem v38_eq (T : LabR) (i : S65536.Idx) (k : Fin 1000) :
    val_main_v38 (F := Ideal) T (cell i k) = weightR (T i) k := by
  rw [val_main_v38_apply, val_main_v36_apply, val_main_v35_apply, val_main_v33_apply, v0_at T _ i rfl,
    val_main_v34_apply, v2_at, val_main_v37_apply, val_main_cst_8_apply]
  rfl

/-! ## The two row sums -/

/-- The weighted sum below the label. -/
theorem v41_eq (X : ArrR) (T : LabR) (i : S65536.Idx) :
    val_main_v41 (F := Ideal) X T i = underRowWith weightR (row X i) (T i) := by
  rw [val_main_v41_apply, val_main_cst_10_apply, Ideal.ofBits_def, Ideal.ofBits_zero_f32, zero_add]
  refine Finset.sum_congr rfl fun k _ => ?_
  rw [idx2_eq (idx_main_v41 i k) (cell i k) rfl rfl, val_main_v40_apply, v21_eq, val_main_v39_apply, v38_eq, v28_eq,
    val_main_call4_v1_apply, val_main_call4_v0_apply, val_main_cst_9_apply, Ideal.ofBits_def, Ideal.ofBits_zero_f32]
  rfl

/-- The sum above the label. -/
theorem v44_eq (X : ArrR) (T : LabR) (i : S65536.Idx) :
    val_main_v44 (F := Ideal) X T i = overRow (row X i) (T i) := by
  rw [val_main_v44_apply, val_main_cst_13_apply, Ideal.ofBits_def, Ideal.ofBits_zero_f32, zero_add]
  refine Finset.sum_congr rfl fun k _ => ?_
  rw [idx2_eq (idx_main_v44 i k) (cell i k) rfl rfl, v32_eq]

/-! ## The picked entry -/

/-- The gather's index column at row r is row r's label: a label in [0, 1000) is not moved. -/
theorem call1_v5_eq (T : LabR) (hT : ∀ i, 0 ≤ (T i).toInt ∧ (T i).toInt < 1000) (q : S65536x1x1.Idx)
    (i : S65536.Idx) (h : (q 0).val = (i 0).val) : val_main_call1_v5 (F := Ideal) T q = T i := by
  have hq : (idx_main_call1_v5 q 0).val = (i 0).val := by
    have h1 : (q 1).val < 1 := (q 1).isLt
    have h2 : (q 2).val < 1 := (q 2).isLt
    show (((q 0).val * 1 + (q 1).val) * 1 + (q 2).val) / 1 = (i 0).val
    omega
  rw [val_main_call1_v5_apply, val_main_call1_v4_apply, val_main_call1_v1_apply, val_main_call1_v3_apply,
    v0_at T _ i hq, val_main_call1_v0_apply, val_main_call1_c_apply, val_main_call1_v2_apply,
    val_main_call1_c_0_apply]
  exact label_not_moved _ (hT i).1 (hT i).2

/-- Every bit of the in-range mask is 1. -/
theorem call1_v12_eq (T : LabR) (hT : ∀ i, 0 ≤ (T i).toInt ∧ (T i).toInt < 1000) (j : S65536x1.Idx) :
    val_main_call1_v12 (F := Ideal) T j = 1#1 := by
  unfold val_main_call1_v12
  refine andReduce_one _ _ _ _ (fun q => ?_) rfl j
  rw [val_main_call1_v11_apply, val_main_call1_v7_apply, val_main_call1_v10_apply,
    call1_v5_eq T hT q (ix1 (⟨(q 0).val, (q 0).isLt⟩ : Fin 65536)) rfl, val_main_call1_v6_apply,
    val_main_call1_c_2_apply, val_main_call1_v9_apply, val_main_call1_v8_apply, val_main_call1_c_1_apply]
  exact label_in_range _ (hT _).1 (hT _).2

/-- The entry the reference picks in a row is the log-probability of the row's label. -/
theorem v4_eq (X : ArrR) (T : LabR) (hT : ∀ i, 0 ≤ (T i).toInt ∧ (T i).toInt < 1000) (j : S65536x1.Idx)
    (i : S65536.Idx) (h : (j 0).val = (i 0).val) :
    val_main_v4 (F := Ideal) X T j = picked (row X i) (T i) := by
  rw [val_main_v4_apply, call1_v12_eq T hT, select_one]
  unfold val_main_call1_v13
  rw [gather_apply]
  have hc : ix2 (⟨(j 0).val, idx2_lt0 j⟩ : Fin 65536)
      (⟨min (val_main_call1_v5 (F := Ideal) T
          (ix3 (⟨(j 0).val, idx2_lt0 j⟩ : Fin 65536) (0 : Fin 1) (0 : Fin 1))).toInt.toNat 999, by omega⟩ : Fin 1000)
      = cell i (tIdx (T i)) :=
    idx2_eq _ _ h (by
      show min (val_main_call1_v5 (F := Ideal) T _).toInt.toNat 999 = min (T i).toInt.toNat 999
      rw [call1_v5_eq T hT _ i h])
  rw [hc, v3_eq]
  rfl

/-! ## The three totals -/

/-- The rows' one-entry column, as the rows. -/
def colEquiv : S65536x1.Idx ≃ S65536.Idx where
  toFun j := ix1 (⟨(j 0).val, idx2_lt0 j⟩ : Fin 65536)
  invFun i := ix2 (⟨(i 0).val, (i 0).isLt⟩ : Fin 65536) (0 : Fin 1)
  left_inv j := idx2_eq _ _ rfl (by have := idx2_lt1 j; show 0 = (j 1).val; omega)
  right_inv i := idx1_eq _ _ rfl

/-- The sum of the picked entries. -/
theorem v5_eq (X : ArrR) (T : LabR) (hT : ∀ i, 0 ≤ (T i).toInt ∧ (T i).toInt < 1000) (ix : S_.Idx) :
    val_main_v5 (F := Ideal) X T ix = total picked X T := by
  rw [val_main_v5_apply, val_main_cst_apply, Ideal.ofBits_def, Ideal.ofBits_zero_f32, zero_add]
  unfold total
  rw [← Equiv.sum_comp colEquiv (fun i => picked (row X i) (T i))]
  exact Finset.sum_congr rfl fun j _ => v4_eq X T hT j (colEquiv j) rfl

/-- The sum over the rows of the weighted sums below the label. -/
theorem v42_eq (X : ArrR) (T : LabR) (ix : S_.Idx) :
    val_main_v42 (F := Ideal) X T ix = total (underRowWith weightR) X T := by
  rw [val_main_v42_apply, val_main_cst_11_apply, Ideal.ofBits_def, Ideal.ofBits_zero_f32, zero_add]
  exact Finset.sum_congr rfl fun i _ => v41_eq X T i

/-- The sum over the rows of the sums above the label. -/
theorem v45_eq (X : ArrR) (T : LabR) (ix : S_.Idx) :
    val_main_v45 (F := Ideal) X T ix = total overRow X T := by
  rw [val_main_v45_apply, val_main_cst_14_apply, Ideal.ofBits_def, Ideal.ofBits_zero_f32, zero_add]
  exact Finset.sum_congr rfl fun i _ => v44_eq X T i

/-! ## The result -/

/-- The reference's result is the specification's loss in the reference's spelling. -/
theorem ref_eq (X : (⟨S65536x1000, .f32⟩ : BufTy).Contents (Elt Ideal)) (T : (⟨S65536, .i32⟩ : BufTy).Contents (Elt Ideal))
    (hT : ∀ i, 0 ≤ (T i).toInt ∧ (T i).toInt < 1000) :
    Cert.ReferenceIdeal.ReadP.val_main_v49 (F := Ideal) X T = fun _ => Cert.Spec.lossR X T := by
  funext ix
  rw [val_main_v49_apply, val_main_v7_apply, val_main_v6_apply, v5_eq X T hT, val_main_cst_0_apply,
    val_main_v48_apply, val_main_cst_16_apply, val_main_v47_apply, val_main_v46_apply, v45_eq,
    val_main_cst_15_apply, val_main_v43_apply, v42_eq, val_main_cst_12_apply]
  rfl

end Cert.RefValue

end
-- ==== Proof.lean ====
/-
  The certificate: the kernel's loss against the reference's, over the extended reals, for finite logits and labels
  in [0, 1000).

  Both programs form, per row, the cross entropy of the label, the weighted sum of log(1 − p) over the classes below
  the label and the sum of log(1 − p) over the classes above it, average each over the 65536 rows and return
  ce − ½ · (over + under).  The kernel computes the three numbers per block of 512 rows inside one call and the
  means on the host; its result is `lossK` of the arguments (KernelRun).  The reference's result is `lossR`
  (RefValue).  The two spellings differ in how the label's log-probability is picked (a masked sum against a gather,
  with the negation on different sides of the mean) and in where the integer difference label − class is converted;
  they agree when every logit is real and every label is a class (Algebra), which is what the precondition says
  (PreDecode).  The frames are the generated ones; the reference's is its run with the result dropped.
-/
import proofs.«400552_j14242111553840_1_alg».proof.Defs
import proofs.«400552_j14242111553840_1_alg».proof.Proof.Gen.Kernel
import proofs.«400552_j14242111553840_1_alg».proof.Proof.Gen.Kernel.Frame
import proofs.«400552_j14242111553840_1_alg».proof.Proof.Gen.KernelIdeal
import proofs.«400552_j14242111553840_1_alg».proof.Proof.Gen.KernelIdeal.Frame
import proofs.«400552_j14242111553840_1_alg».proof.Proof.Gen.ReferenceIdeal
import proofs.«400552_j14242111553840_1_alg».proof.Proof.Gen.Pre_finite_inputs
import proofs.«400552_j14242111553840_1_alg».proof.Proof.RunP
import proofs.«400552_j14242111553840_1_alg».proof.Proof.ReadP
import proofs.«400552_j14242111553840_1_alg».proof.Proof.Algebra
import proofs.«400552_j14242111553840_1_alg».proof.Proof.PreDecode
import proofs.«400552_j14242111553840_1_alg».proof.Proof.KernelRun
import proofs.«400552_j14242111553840_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- Both runs end at the kernel's spelling of the loss of the (agreeing) arguments. -/
theorem algebraic : Cert.algebraic_KernelIdeal_ReferenceIdeal := by
  intro m ρ m' ρ' hpre hagree
  refine ⟨fun c _ => Cert.Spec.lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨hX, hT⟩ := Cert.PreDecode.pre_decode _ _ (hpre c)
  rw [Cert.ReferenceIdeal.ReadP.val_main_v49_eq, (hagree c).1, (hagree c).2, Cert.RefValue.ref_eq _ _ hT,
    Cert.Algebra.lossR_eq_lossK _ _ hX hT]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
